-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S512x1 .f32 .bf16
  ∧ IdealRules.truncf_extf.Statement Cert.KernelIdeal.S512x1 .f32 .bf16
  ∧ IdealRules.truncf_extf.Statement Cert.KernelIdeal.S512x1 .f32 .bf16
  ∧ IdealRules.truncf_extf.Statement Cert.KernelIdeal.S512x1 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S1000x512 : Shape := ⟨2, ![1000, 512]⟩
abbrev S65536 : Shape := ⟨1, ![65536]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S1000x512 : S_.BroadcastsInDim S1000x512 (![] : Fin 0 → Fin S1000x512.rank)
  reducesTo_S1000x512_S_d0_1 : S1000x512.ReducesTo [0, 1] S_
  bcast_S_S65536 : S_.BroadcastsInDim S65536 (![] : Fin 0 → Fin S65536.rank)
  reducesTo_S65536_S_d0 : S65536.ReducesTo [0] S_

variable [Facts]

def fn {F : FTy → Type} [FloatOps F] (main_arg0 : FVec F S65536x512 .f32) (main_arg1 : FVec F S1000x512 .f32) (main_arg2 : IVec S65536 32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S1000x512 .f32 := Host.absf main_arg1
  let main_cst_0 : FVec F S_ .f32 := constant S_ .f32 0x7F800000#32
  let main_v5 : FVec F S1000x512 .f32 := broadcastInDim S1000x512 ![] bcast_S_S1000x512 main_cst_0
  let main_v6 : IVec S1000x512 1 := cmpf .olt main_v4 main_v5
  let main_c_1 : IVec S_ 1 := constantI S_ 1 1#1
  let main_v7 : IVec S_ 1 := (fun x v => Host.reduce IntOp.andi x v reducesTo_S1000x512_S_d0_1 h_S_) main_v6 main_c_1
  let main_v8 : IVec S_ 1 := andi main_v3 main_v7
  let main_c_2 : IVec S_ 32 := constantI S_ 32 0#32
  let main_v9 : IVec S65536 32 := broadcastInDim S65536 ![] bcast_S_S65536 main_c_2
  let main_v10 : IVec S65536 1 := cmpi .sge main_arg2 main_v9
  let main_c_3 : IVec S_ 32 := constantI S_ 32 1000#32
  let main_v11 : IVec S65536 32 := broadcastInDim S65536 ![] bcast_S_S65536 main_c_3
  let main_v12 : IVec S65536 1 := cmpi .slt main_arg2 main_v11
  let main_v13 : IVec S65536 1 := andi main_v10 main_v12
  let main_c_4 : IVec S_ 1 := constantI S_ 1 1#1
  let main_v14 : IVec S_ 1 := (fun x v => Host.reduce IntOp.andi x v reducesTo_S65536_S_d0 h_S_) main_v13 main_c_4
  let main_v15 : IVec S_ 1 := andi main_v8 main_v14
  main_v15
-- ==== Kernel.lean ====
abbrev S65536x512 : Shape := ⟨2, ![65536, 512]⟩
abbrev S1000x512 : Shape := ⟨2, ![1000, 512]⟩
abbrev S65536 : Shape := ⟨1, ![65536]⟩
abbrev S1x65536 : Shape := ⟨2, ![1, 65536]⟩
abbrev S2x1024x640 : Shape := ⟨3, ![2, 1024, 640]⟩
abbrev S2048x512 : Shape := ⟨2, ![2048, 512]⟩
abbrev S1x2048 : Shape := ⟨2, ![1, 2048]⟩
abbrev S1x1024x640 : Shape := ⟨3, ![1, 1024, 640]⟩
abbrev S1024x640 : Shape := ⟨2, ![1024, 640]⟩
abbrev S512x512 : Shape := ⟨2, ![512, 512]⟩
abbrev S1x512 : Shape := ⟨2, ![1, 512]⟩
abbrev S512 : Shape := ⟨1, ![512]⟩
abbrev S512x1 : Shape := ⟨2, ![512, 1]⟩
abbrev S512x125 : Shape := ⟨2, ![512, 125]⟩
abbrev S512x128 : Shape := ⟨2, ![512, 128]⟩
abbrev S1024x512 : Shape := ⟨2, ![1024, 512]⟩
abbrev S1024x128 : Shape := ⟨2, ![1024, 128]⟩
abbrev S1024x1 : Shape := ⟨2, ![1024, 1]⟩
abbrev S_ : Shape := ⟨0, ![]⟩
abbrev S1024 : Shape := ⟨1, ![1024]⟩

abbrev nBuf : Space → Nat
  | .hbm => 53
  | .vmem => 6
  | .smem => 0
  | _ => 0

abbrev bufTy : (tb : Table) → Fin (tcTables nBuf tb) → BufTy
  | .hbm, ⟨0, _⟩ => ⟨S65536x512, .f32⟩
  | .hbm, ⟨1, _⟩ => ⟨S1000x512, .f32⟩
  | .hbm, ⟨2, _⟩ => ⟨S65536, .i32⟩
  | .hbm, ⟨3, _⟩ => ⟨S1x65536, .i32⟩
  | .hbm, ⟨4, _⟩ => ⟨S2x1024x640, .f32⟩
  | .hbm, ⟨5, _⟩ => ⟨S1x1024x640, .f32⟩
  | .hbm, ⟨6, _⟩ => ⟨S1024x640, .f32⟩
  | .hbm, ⟨7, _⟩ => ⟨S1x1024x640, .f32⟩
  | .hbm, ⟨8, _⟩ => ⟨S1024x640, .f32⟩
  | .hbm, ⟨9, _⟩ => ⟨S1024x640, .f32⟩
  | .hbm, ⟨10, _⟩ => ⟨S1024x512, .f32⟩
  | .hbm, ⟨11, _⟩ => ⟨S1024x1, .f32⟩
  | .hbm, ⟨12, _⟩ => ⟨S1024x1, .f32⟩
  | .hbm, ⟨13, _⟩ => ⟨S1024x1, .f32⟩
  | .hbm, ⟨14, _⟩ => ⟨S1024x1, .f32⟩
  | .hbm, ⟨15, _⟩ => ⟨S_, .i32⟩
  | .hbm, ⟨16, _⟩ => ⟨S_, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024, .f32⟩
  | .hbm, ⟨21, _⟩ => ⟨S1024x1, .f32⟩
  | .hbm, ⟨22, _⟩ => ⟨S1024x512, .f32⟩
  | .hbm, ⟨23, _⟩ => ⟨S_, .f32⟩
  | .hbm, ⟨24, _⟩ => ⟨S1024, .f32⟩
  | .hbm, ⟨25, _⟩ => ⟨S1024x1, .f32⟩
  | .hbm, ⟨26, _⟩ => ⟨S_, .f32⟩
  | .hbm, ⟨27, _⟩ => ⟨S1024x1, .f32⟩
  | .hbm, ⟨28, _⟩ => ⟨S1024x1, .f32⟩
  | .hbm, ⟨29, _⟩ => ⟨S1024x1, .f32⟩
  | .hbm, ⟨30, _⟩ => ⟨S1024x1, .f32⟩
  | .hbm, ⟨31, _⟩ => ⟨S1024x1, .f32⟩
  | .hbm, ⟨32, _⟩ => ⟨S_, .f32⟩
  | .hbm, ⟨33, _⟩ => ⟨S1024x1, .f32⟩
  | .hbm, ⟨34, _⟩ => ⟨S1024x1, .f32⟩
  | .hbm, ⟨35, _⟩ => ⟨S_, .f32⟩
  | .hbm, ⟨36, _⟩ => ⟨S1024x1, .f32⟩
  | .hbm, ⟨37, _⟩ => ⟨S1024x1, .i1⟩
  | .hbm, ⟨38, _⟩ => ⟨S_, .f32⟩
  | .hbm, ⟨39, _⟩ => ⟨S1024x1, .f32⟩
  | .hbm, ⟨40, _⟩ => ⟨S1024x1, .f32⟩
  | .hbm, ⟨41, _⟩ => ⟨S_, .f32⟩
  | .hbm, ⟨42, _⟩ => ⟨S1024x1, .f32⟩
  | .hbm, ⟨43, _⟩ => ⟨S1024x1, .f32⟩
  | .hbm, ⟨44, _⟩ => ⟨S1024x1, .f32⟩
  | .hbm, ⟨45, _⟩ => ⟨S_, .f32⟩
  | .hbm, ⟨46, _⟩ => ⟨S_, .f32⟩
  | .hbm, ⟨47, _⟩ => ⟨S1024x1, .f32⟩
  | .hbm, ⟨48, _⟩ => ⟨S1024x1, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .local _ .vmem, ⟨0, _⟩ => ⟨S2048x512, .f32⟩
  | .local _ .vmem, ⟨1, _⟩ => ⟨S2048x512, .f32⟩
  | .local _ .vmem, ⟨2, _⟩ => ⟨S1x2048, .i32⟩
  | .local _ .vmem, ⟨3, _⟩ => ⟨S1x2048, .i32⟩
  | .local _ .vmem, ⟨4, _⟩ => ⟨S1x1024x640, .f32⟩
  | .local _ .vmem, ⟨5, _⟩ => ⟨S1024x640, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_call0_v0 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_call1_v0 : Ref sig .tc := ⟨.hbm, 46, rfl⟩
abbrev main_call1_v1 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v131 : BitVec 1 := Scalar.cmpi .eq arg1 c15_i32
  let v132 : BitVec 32 := Scalar.extui v131
  let c0_i32_64 : BitVec 32 := 0#32
  let v133 : BitVec 1 := Scalar.cmpi .ne v132 c0_i32_64
  v133

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

class Facts₀ : Prop where
  shapeCasts_S65536_S1x65536 : S65536.ShapeCasts S1x65536
  inb_S1024x640_S1024x640_0_0 : ∀ a, (![0, 0] : Fin 2 → Nat) a + S1024x640.size a ≤ S1024x640.size a
  h_S1024x640 : 0 < S1024x640.numel
  shapeCasts_S1024x640_S1024x640 : S1024x640.ShapeCasts S1024x640
  inb_S2048x512_S512x512_0_0 : ∀ a, (![0, 0] : Fin 2 → Nat) a + S512x512.size a ≤ S2048x512.size a
  h_S512x512 : 0 < S512x512.numel
  inb_S1x2048_S1x512_0_0 : ∀ a, (![0, 0] : Fin 2 → Nat) a + S1x512.size a ≤ S1x2048.size a
  h_S1x512 : 0 < S1x512.numel
  shapeCasts_S1x512_S1x512 : S1x512.ShapeCasts S1x512
  reduces_S512x512_S512 : S512x512.Reduces [1] S512
  shapeCasts_S512_S512x1 : S512.ShapeCasts S512x1
  bitsLt_bf16_f32 : FTy.bits .bf16 < FTy.bits .f32
  concatenates_S512x1_S512x1_S512x1_S512x125_S512x128_d1 : Shape.Concatenates [S512x1, S512x1, S512x1, S512x125] S512x128 1
  iota_S1024x512_d0_w32 : S1024x512.Iotas .tc 32 [0]
  broadcasts_S1x512_S1024x512 : S1x512.Broadcasts S1024x512
  natLt_1_32 : 1 < 32
  inb_S1024x640_S1024x512_0_0 : ∀ a, (![0, 0] : Fin 2 → Nat) a + S1024x512.size a ≤ S1024x640.size a
  h_S1024x512 : 0 < S1024x512.numel
  shapeCasts_S1024x512_S1024x512 : S1024x512.ShapeCasts S1024x512
  inb_S1024x640_S1024x128_0_512 : ∀ a, (![0, 512] : Fin 2 → Nat) a + S1024x128.size a ≤ S1024x640.size a
  h_S1024x128 : 0 < S1024x128.numel
  shapeCasts_S1024x128_S1024x128 : S1024x128.ShapeCasts S1024x128
  inb_S2048x512_S512x512_512_0 : ∀ a, (![512, 0] : Fin 2 → Nat) a + S512x512.size a ≤ S2048x512.size a
  inb_S1x2048_S1x512_0_512 : ∀ a, (![0, 512] : Fin 2 → Nat) a + S1x512.size a ≤ S1x2048.size a
  inb_S2048x512_S512x512_1024_0 : ∀ a, (![1024, 0] : Fin 2 → Nat) a + S512x512.size a ≤ S2048x512.size a
  inb_S1x2048_S1x512_0_1024 : ∀ a, (![0, 1024] : Fin 2 → Nat) a + S1x512.size a ≤ S1x2048.size a
  inb_S2048x512_S512x512_1536_0 : ∀ a, (![1536, 0] : Fin 2 → Nat) a + S512x512.size a ≤ S2048x512.size a
  inb_S1x2048_S1x512_0_1536 : ∀ a, (![0, 1536] : Fin 2 → Nat) a + S1x512.size a ≤ S1x2048.size a
  inb_S1x1024x640_S1x1024x640_0_0_0 : ∀ a, (![0, 0, 0] : Fin 3 → Nat) a + S1x1024x640.size a ≤ S1x1024x640.size a
  h_S1x1024x640 : 0 < S1x1024x640.numel
  shapeCasts_S1x1024x640_S1024x640 : S1x1024x640.ShapeCasts S1024x640
  shapeCasts_S1024x640_S1x1024x640 : S1024x640.ShapeCasts S1x1024x640
  slices_S2x1024x640_S1x1024x640_0_0_0 : S2x1024x640.Slices ![0, 0, 0] S1x1024x640
  slices_S2x1024x640_S1x1024x640_1_0_0 : S2x1024x640.Slices ![1, 0, 0] S1x1024x640
  slices_S1024x640_S1024x512_0_0 : S1024x640.Slices ![0, 0] S1024x512
  slices_S1024x640_S1024x1_0_512 : S1024x640.Slices ![0, 512] S1024x1
  slices_S1024x640_S1024x1_0_513 : S1024x640.Slices ![0, 513] S1024x1
  slices_S1024x640_S1024x1_0_514 : S1024x640.Slices ![0, 514] S1024x1
  pads_S1000x512_S1024x512_0240_000 : S1000x512.Pads (![0, 0] : Fin 2 → Nat) ![24, 0] ![0, 0] S1024x512
  h_S_ : 0 < S_.numel
  reducesTo_S1024x512_S1024_d1 : S1024x512.ReducesTo [1] S1024
  bcast_S1024_S1024x1_0 : S1024.BroadcastsInDim S1024x1 (![0] : Fin 1 → Fin S1024x1.rank)
  bcast_S_S1024x1 : S_.BroadcastsInDim S1024x1 (![] : Fin 0 → Fin S1024x1.rank)
  reducesTo_S1024x1_S_d0_1 : S1024x1.ReducesTo [0, 1] S_
  dot_S1024x512_S512x512_S1024x512_1_0_0_1_n_n_wf : DotDims.WF S1024x512 S512x512 S1024x512 [1] [0] [0] [1] [] []
  dot_S1024x512_S512x128_S1024x128_1_0_0_1_n_n_wf : DotDims.WF S1024x512 S512x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x65536.size a
  hwx0_1 : ∀ i : grid0.Coords, EltTy.bits .i32 = 32 ∨ (Rect.block (s := S1x65536) S1x2048.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024x640.size a ≤ S2x1024x640.size a
  hwx0_2 : ∀ i : grid0.Coords, EltTy.bits .f32 = 32 ∨ (Rect.block (s := S2x1024x640) S1x1024x640.size (cc0_transform_2 i) (hinb0_2 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024x640.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S65536x512 : Shape := ⟨2, ![65536, 512]⟩
abbrev S1000x512 : Shape := ⟨2, ![1000, 512]⟩
abbrev S65536 : Shape := ⟨1, ![65536]⟩
abbrev S_ : Shape := ⟨0, ![]⟩
abbrev S65536x1 : Shape := ⟨2, ![65536, 1]⟩
abbrev S1000 : Shape := ⟨1, ![1000]⟩

abbrev nBuf : Space → Nat
  | .hbm => 41
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S1000x512, .f32⟩
  | .hbm, ⟨2, _⟩ => ⟨S65536, .i32⟩
  | .hbm, ⟨3, _⟩ => ⟨S_, .i32⟩
  | .hbm, ⟨4, _⟩ => ⟨S65536, .i32⟩
  | .hbm, ⟨5, _⟩ => ⟨S65536, .i1⟩
  | .hbm, ⟨6, _⟩ => ⟨S_, .i32⟩
  | .hbm, ⟨7, _⟩ => ⟨S65536, .i32⟩
  | .hbm, ⟨8, _⟩ => ⟨S65536, .i32⟩
  | .hbm, ⟨9, _⟩ => ⟨S65536, .i32⟩
  | .hbm, ⟨10, _⟩ => ⟨S65536x1, .i32⟩
  | .hbm, ⟨11, _⟩ => ⟨S65536x512, .f32⟩
  | .hbm, ⟨12, _⟩ => ⟨S65536x512, .f32⟩
  | .hbm, ⟨13, _⟩ => ⟨S65536x512, .f32⟩
  | .hbm, ⟨14, _⟩ => ⟨S_, .f32⟩
  | .hbm, ⟨15, _⟩ => ⟨S65536, .f32⟩
  | .hbm, ⟨16, _⟩ => ⟨S_, .f32⟩
  | .hbm, ⟨17, _⟩ => ⟨S1000, .f32⟩
  | .hbm, ⟨18, _⟩ => ⟨S65536x1, .i32⟩
  | .hbm, ⟨19, _⟩ => ⟨S1000, .f32⟩
  | .hbm, ⟨20, _⟩ => ⟨S_, .f32⟩
  | .hbm, ⟨21, _⟩ => ⟨S65536, .f32⟩
  | .hbm, ⟨22, _⟩ => ⟨S_, .f32⟩
  | .hbm, ⟨23, _⟩ => ⟨S1000, .f32⟩
  | .hbm, ⟨24, _⟩ => ⟨S65536x1, .i32⟩
  | .hbm, ⟨25, _⟩ => ⟨S1000, .f32⟩
  | .hbm, ⟨26, _⟩ => ⟨S_, .f32⟩
  | .hbm, ⟨27, _⟩ => ⟨S1000, .f32⟩
  | .hbm, ⟨28, _⟩ => ⟨S1000, .i1⟩
  | .hbm, ⟨29, _⟩ => ⟨S_, .f32⟩
  | .hbm, ⟨30, _⟩ => ⟨S1000, .f32⟩
  | .hbm, ⟨31, _⟩ => ⟨S1000, .f32⟩
  | .hbm, ⟨32, _⟩ => ⟨S1000, .f32⟩
  | .hbm, ⟨33, _⟩ => ⟨S_, .f32⟩
  | .hbm, ⟨34, _⟩ => ⟨S_, .f32⟩
  | .hbm, ⟨35, _⟩ => ⟨S1000, .f32⟩
  | .hbm, ⟨36, _⟩ => ⟨S1000, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_call0_v0 : Ref sig .tc := ⟨.hbm, 34, rfl⟩
abbrev main_call0_v1 : Ref sig .tc := ⟨.hbm, 35, rfl⟩
abbrev main_v22 : Ref sig .tc := ⟨.hbm, 36, rfl⟩
abbrev main_cst_7 : Ref sig .tc := ⟨.hbm, 37, rfl⟩
abbrev main_v23 : Ref sig .tc := ⟨.hbm, 38, rfl⟩
abbrev main_cst_8 : Ref sig .tc := ⟨.hbm, 39, rfl⟩
abbrev main_v24 : Ref sig .tc := ⟨.hbm, 40, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  reducesTo_S65536x512_S65536_d1 : S65536x512.ReducesTo [1] S65536
  h_S_ : 0 < S_.numel
  bcast_S_S1000 : S_.BroadcastsInDim S1000 (![] : Fin 0 → Fin S1000.rank)
  reducesTo_S1000_S_d0 : S1000.ReducesTo [0] S_
  gather_S1000x512_S65536x1_S65536x512_1_0_n_n_0_1_1512_wf : GatherDims.WF S1000x512 S65536x1 S65536x512 [1] [0] [] [0] [] 1 ![1, 512]
  scatter_S1000_S65536x1_S65536_n_0_0_1_wf : ScatterDims.WF S1000 S65536x1 S65536 [] [0] [0] 1

variable [Facts₀]

def gather_S1000x512_S65536x1_S65536x512_1_0_n_n_0_1_1512 : GatherDims S1000x512 S65536x1 S65536x512 where
  offsetDims := [1]
  collapsedSliceDims := [0]
  operandBatchingDims := []
  startIndicesBatchingDims := []
  startIndexMap := [0]
  indexVectorDim := 1
  sliceSizes := ![1, 512]
  wf := gather_S1000x512_S65536x1_S65536x512_1_0_n_n_0_1_1512_wf
def scatter_S1000_S65536x1_S65536_n_0_0_1 : ScatterDims S1000 S65536x1 S65536 where
  updateWindowDims := []
  insertedWindowDims := [0]
  scatterDimsToOperandDims := [0]
  indexVectorDim := 1
  wf := scatter_S1000_S65536x1_S65536_n_0_0_1_wf

class Facts : Prop extends Facts₀ where

variable [Facts]
-- ==== Proof.Spec.lean ====
/-
  Center loss: the two whole-array functions the certificate compares, on the extended reals.

  The inputs are a feature matrix `f` (65536 rows of 512), a matrix of class centers `cn` (1000 rows of 512) and a
  label `lab i` in `Fin 1000` for every row.  The REFERENCE measures each row's squared distance to its own class
  center, sums the distances and counts the rows class by class, divides each non-empty class's sum by its count
  times 512, adds the quotients up and divides by 65536 (`refLoss`).

  The KERNEL never looks a center up.  It multiplies a one-hot matrix (`hot j i` is one when row `i` has label `j`,
  for `j` in a padded range of 1024 classes) into the rows augmented by three columns — the squared norm, the
  squared norm minus itself, and a one — which gives, class by class, the sum of the rows, of the squared norms,
  and the count (`acc`); the distances are then recovered by expanding the square,
  `‖x − c‖² = ‖x‖² − 2·c·x + ‖c‖²` summed over the class's rows (`kerSums`), clamped at zero, divided by the count
  (clamped at one) times 512 where the count is positive, summed over the 1024 padded classes and divided by 65536
  (`kerLoss`).
-/
import Idealize.ShloMosaic.PureOps.Ideal
import Idealize.ShloMosaic.Lib.ValueIdx

noncomputable section

open scoped BigOperators
open Finset

namespace Cert.CenterLoss

open Idealize.ShloMosaic Idealize.ShloMosaic.ValueIdx

/-! ## The arrays as functions of coordinates -/

/-- The feature array by (row, column). -/
def fOf (A : (⟨2, ![65536, 512]⟩ : Shape).Idx → EReal) : Fin 65536 → Fin 512 → EReal := fun i k => A (ix2 i k)
/-- The center array by (class, column). -/
def cOf (C : (⟨2, ![1000, 512]⟩ : Shape).Idx → EReal) : Fin 1000 → Fin 512 → EReal := fun j k => C (ix2 j k)
/-- The label words as classes: the word's value when it is below 1000 (which the precondition says of every label). -/
def labOf (L : (⟨1, ![65536]⟩ : Shape).Idx → BitVec 32) : Fin 65536 → Fin 1000 :=
  fun i => ⟨(L (ix1 i)).toNat % 1000, Nat.mod_lt _ (by norm_num)⟩

theorem labOf_val (L : (⟨1, ![65536]⟩ : Shape).Idx → BitVec 32) (i : Fin 65536) (h : (L (ix1 i)).toNat < 1000) :
    (labOf L i).val = (L (ix1 i)).toNat := Nat.mod_eq_of_lt h

variable (f : Fin 65536 → Fin 512 → EReal) (cn : Fin 1000 → Fin 512 → EReal) (lab : Fin 65536 → Fin 1000)

/-! ## The reference -/

/-- Row `i`'s squared distance to the center of its own class. -/
def dist (i : Fin 65536) : EReal := ∑ k : Fin 512, (f i k - cn (lab i) k) * (f i k - cn (lab i) k)
/-- The distances summed over the rows of class `j`. -/
def segSum (j : Fin 1000) : EReal := ∑ i ∈ univ.filter (fun i => lab i = j), dist f cn lab i
/-- The number of rows of class `j`. -/
def segCnt (j : Fin 1000) : EReal := ∑ i ∈ univ.filter (fun i => lab i = j), (1 : EReal)
/-- Class `j`'s mean squared distance per coordinate; zero for an empty class. -/
def refPer (j : Fin 1000) : EReal :=
  if 0 < segCnt lab j then Ideal.div (segSum f cn lab j) (segCnt lab j * 512) else 0
/-- The reference's result. -/
def refLoss : EReal := Ideal.div (∑ j : Fin 1000, refPer f cn lab j) 65536

/-! ## The kernel -/

/-- Row `i`'s squared norm. -/
def sqn (i : Fin 65536) : EReal := ∑ k : Fin 512, f i k * f i k
/-- The one-hot matrix over the padded classes. -/
def hot (j : Fin 1024) (i : Fin 65536) : EReal := if (lab i).val = j.val then 1 else 0
/-- Row `i` augmented: its 512 entries, its squared norm, the squared norm minus itself, a one, and zeros. -/
def aug (i : Fin 65536) (col : Fin 640) : EReal :=
  if h : col.val < 512 then f i ⟨col.val, h⟩
  else if col.val = 512 then sqn f i
  else if col.val = 513 then sqn f i - sqn f i
  else if col.val = 514 then 1 else 0
/-- The one-hot matrix times the augmented rows: per padded class, the sums of the rows' augmented columns. -/
def acc (j : Fin 1024) (col : Fin 640) : EReal := ∑ i : Fin 65536, hot lab j i * aug f i col
/-- The centers padded with 24 zero rows. -/
def cpad (j : Fin 1024) (k : Fin 512) : EReal := if h : j.val < 1000 then cn ⟨j.val, h⟩ k else 0
/-- The expanded square, summed over class `j`'s rows. -/
def kerSums (j : Fin 1024) : EReal :=
  ((acc f lab j ⟨512, by omega⟩ + acc f lab j ⟨513, by omega⟩)
      - 2 * (∑ k : Fin 512, cpad cn j k * acc f lab j ⟨k.val, by omega⟩))
    + (∑ k : Fin 512, cpad cn j k * cpad cn j k) * acc f lab j ⟨514, by omega⟩
/-- Class `j`'s share of the kernel's result. -/
def kerPer (j : Fin 1024) : EReal :=
  if 0 < acc f lab j ⟨514, by omega⟩ then
    Ideal.div (max (kerSums f cn lab j) 0) (max (acc f lab j ⟨514, by omega⟩) 1 * 512)
  else 0
/-- The kernel's result. -/
def kerLoss : EReal := Ideal.div (∑ j : Fin 1024, kerPer f cn lab j) 65536

end Cert.CenterLoss

end
-- ==== Proof.SpecAcc.lean ====
/-
  The kernel's accumulator by ranges of rows.

  The kernel adds the rows' contributions to its accumulator 512 rows at a time, and each of its two passes covers
  half of the rows.  `term j col i` is row number `i`'s contribution to entry `(j, col)` of the accumulator (zero past
  the last row), and `accIco lo hi` the contributions of the rows `lo ≤ i < hi`.  Ranges concatenate
  (`accIco_add`), a range of 512 rows is a sum over `Fin 512` (`accIco_chunk`), and the two halves make up the whole
  accumulator (`acc_eq_halves`).
-/
import proofs.«404159_j25305947308120_3_alg».proof.Proof.Spec
import Mathlib.Algebra.BigOperators.Intervals
import Mathlib.Algebra.Order.BigOperators.Group.LocallyFinite

noncomputable section

open scoped BigOperators
open Finset

namespace Cert.CenterLoss

variable (f : Fin 65536 → Fin 512 → EReal) (lab : Fin 65536 → Fin 1000)

/-- Row number `i`'s contribution to entry `(j, col)` of the accumulator; zero past the last row. -/
def term (j : Fin 1024) (col : Fin 640) (i : ℕ) : EReal :=
  if h : i < 65536 then hot lab j ⟨i, h⟩ * aug f ⟨i, h⟩ col else 0

theorem term_of_lt (j : Fin 1024) (col : Fin 640) {i : ℕ} (h : i < 65536) :
    term f lab j col i = hot lab j ⟨i, h⟩ * aug f ⟨i, h⟩ col := dif_pos h

/-- The contributions of the rows `lo ≤ i < hi`. -/
def accIco (lo hi : ℕ) (j : Fin 1024) (col : Fin 640) : EReal := ∑ i ∈ Finset.Ico lo hi, term f lab j col i

theorem accIco_self (lo : ℕ) (j : Fin 1024) (col : Fin 640) : accIco f lab lo lo j col = 0 := by
  unfold accIco; rw [Finset.Ico_self, Finset.sum_empty]

/-- Consecutive ranges concatenate. -/
theorem accIco_add {lo mid hi : ℕ} (h1 : lo ≤ mid) (h2 : mid ≤ hi) (j : Fin 1024) (col : Fin 640) :
    accIco f lab lo mid j col + accIco f lab mid hi j col = accIco f lab lo hi j col := by
  unfold accIco; exact Finset.sum_Ico_consecutive _ h1 h2

/-- A range of `n` rows from `base` on, as a sum over `Fin n`. -/
theorem accIco_chunk (base n : ℕ) (j : Fin 1024) (col : Fin 640) :
    accIco f lab base (base + n) j col = ∑ r : Fin n, term f lab j col (base + r.val) := by
  unfold accIco
  rw [Finset.sum_Ico_eq_sum_range, Nat.add_sub_cancel_left, Finset.sum_range]

/-- All the rows: the whole accumulator. -/
theorem accIco_all (j : Fin 1024) (col : Fin 640) : accIco f lab 0 65536 j col = acc f lab j col := by
  unfold accIco acc
  rw [← Finset.range_eq_Ico, Finset.sum_range]
  exact Finset.sum_congr rfl (fun i _ => term_of_lt f lab j col i.isLt)

/-- The two halves make up the whole accumulator. -/
theorem acc_eq_halves (j : Fin 1024) (col : Fin 640) :
    acc f lab j col = accIco f lab 0 32768 j col + accIco f lab 32768 65536 j col := by
  rw [accIco_add f lab (by omega) (by omega), accIco_all]

end Cert.CenterLoss

end
-- ==== Proof.Algebra.lean ====
/-
  Center loss, the mathematics: with real entries the kernel's whole-array function is the reference's.

  The one-hot product picks out, class by class, the rows carrying that label, so the accumulator of a true class
  holds the sums of its rows, of their squared norms, a zero (a finite number minus itself) and the count; a padded
  class has no rows, a zero count, and contributes nothing.  Expanding the square,
  `∑ᵢ ‖xᵢ − c‖² = ∑ᵢ ‖xᵢ‖² − 2·c·∑ᵢ xᵢ + n·‖c‖²`, turns the kernel's combination into the class's summed squared
  distances, which are nonnegative (so the clamp at zero does nothing) and whose count, when positive, is at least
  one (so the clamp at one does nothing).  The 1024 shares are then the 1000 of the reference followed by 24 zeros.
-/
import proofs.«404159_j25305947308120_3_alg».proof.Proof.Spec
import Mathlib.Data.EReal.Basic
import Mathlib.Data.EReal.Operations
import Mathlib.Algebra.BigOperators.Fin
import Mathlib.Algebra.BigOperators.Ring.Finset
import Mathlib.Algebra.BigOperators.Group.Finset.Sigma
import Mathlib.Algebra.Order.BigOperators.Group.Finset
import Mathlib.Tactic.Ring
import Mathlib.Tactic.NormNum

noncomputable section

open scoped BigOperators
open Finset

namespace Cert.CenterLoss

/-! ## Sums of real numbers inside the extended reals -/

/-- The inclusion of the reals goes through finite sums. -/
theorem coe_sum_real {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- Expanding the square and exchanging the two sums: the squared distances of a family of rows to one
    point, summed, are the summed squared norms, minus twice the point against the summed rows, plus the
    point's squared norm once per row. -/
theorem sum_sq_dist_expand (fR : Fin 65536 → Fin 512 → ℝ) (S : Finset (Fin 65536)) (c : Fin 512 → ℝ) :
    ∑ i ∈ S, ∑ k, (fR i k - c k) * (fR i k - c k)
      = (∑ i ∈ S, ∑ k, fR i k * fR i k) - 2 * (∑ k, c k * ∑ i ∈ S, fR i k)
        + (∑ k, c k * c k) * (S.card : ℝ) := by
  have e2 : ∑ i ∈ S, ∑ k, c k * fR i k = ∑ k, c k * ∑ i ∈ S, fR i k := by
    rw [Finset.sum_comm]
    exact Finset.sum_congr rfl fun k _ => (Finset.mul_sum _ _ _).symm
  calc ∑ i ∈ S, ∑ k, (fR i k - c k) * (fR i k - c k)
      = ∑ i ∈ S, (∑ k, fR i k * fR i k - 2 * ∑ k, c k * fR i k + ∑ k, c k * c k) := by
        refine Finset.sum_congr rfl fun i _ => ?_
        rw [Finset.mul_sum, ← Finset.sum_sub_distrib, ← Finset.sum_add_distrib]
        exact Finset.sum_congr rfl fun k _ => by ring
    _ = _ := by
        rw [Finset.sum_add_distrib, Finset.sum_sub_distrib, ← Finset.mul_sum, e2, Finset.sum_const,
          nsmul_eq_mul]
        ring

variable (f : Fin 65536 → Fin 512 → EReal) (cn : Fin 1000 → Fin 512 → EReal) (lab : Fin 65536 → Fin 1000)

/-! ## The one-hot product selects the rows of a class -/

theorem hot_mul (jj : Fin 1024) (i : Fin 65536) (x : EReal) :
    hot lab jj i * x = if (lab i).val = jj.val then x else 0 := by
  unfold hot
  split_ifs
  · exact one_mul x
  · exact zero_mul x

/-- For a true class, the accumulator is the sum of the augmented rows over the rows of that class. -/
theorem acc_eq_sum_filter (j : Fin 1000) (jj : Fin 1024) (hjj : jj.val = j.val) (col : Fin 640) :
    acc f lab jj col = ∑ i ∈ univ.filter (fun i => lab i = j), aug f i col := by
  unfold acc
  rw [Finset.sum_filter]
  refine Finset.sum_congr rfl fun i _ => ?_
  rw [hot_mul]
  by_cases h : lab i = j
  · rw [if_pos h, if_pos (by rw [h, hjj])]
  · rw [if_neg h, if_neg (fun h' => h (Fin.ext (h'.trans hjj)))]

/-- A padded class has no rows: its accumulator is zero. -/
theorem acc_pad (jj : Fin 1024) (h : 1000 ≤ jj.val) (col : Fin 640) : acc f lab jj col = 0 := by
  unfold acc
  refine Finset.sum_eq_zero fun i _ => ?_
  rw [hot_mul, if_neg]
  have := (lab i).isLt
  omega

theorem kerPer_pad (jj : Fin 1024) (h : 1000 ≤ jj.val) : kerPer f cn lab jj = 0 := by
  unfold kerPer
  rw [acc_pad f lab jj h, if_neg (lt_irrefl _)]

/-! ## The augmented columns -/

theorem aug_lt (i : Fin 65536) (k : Fin 512) (h : k.val < 640) : aug f i ⟨k.val, h⟩ = f i k := by
  unfold aug
  rw [dif_pos k.isLt]

theorem aug_512 (i : Fin 65536) (h : 512 < 640) : aug f i ⟨512, h⟩ = sqn f i := by
  simp [aug]

theorem aug_513 (i : Fin 65536) (h : 513 < 640) : aug f i ⟨513, h⟩ = sqn f i - sqn f i := by
  simp [aug]

theorem aug_514 (i : Fin 65536) (h : 514 < 640) : aug f i ⟨514, h⟩ = 1 := by
  simp [aug]

/-! ## With real entries, every quantity is the image of a real one -/

section RealEntries

variable (fR : Fin 65536 → Fin 512 → ℝ) (cR : Fin 1000 → Fin 512 → ℝ)

theorem sqn_coe (hf : ∀ i k, f i k = (fR i k : EReal)) (i : Fin 65536) :
    sqn f i = ((∑ k, fR i k * fR i k : ℝ) : EReal) := by
  unfold sqn
  rw [coe_sum_real]
  refine Finset.sum_congr rfl fun k _ => ?_
  rw [hf, EReal.coe_mul]

/-- The number of rows of a class, as a real number. -/
theorem segCnt_coe (j : Fin 1000) :
    segCnt lab j = (((univ.filter (fun i => lab i = j)).card : ℝ) : EReal) := by
  unfold segCnt
  have h : ∀ i ∈ univ.filter (fun i => lab i = j), (1 : EReal) = ((1 : ℝ) : EReal) :=
    fun _ _ => EReal.coe_one.symm
  rw [Finset.sum_congr rfl h, ← coe_sum_real, Finset.sum_const, nsmul_eq_mul, mul_one]

theorem acc_cnt (j : Fin 1000) (jj : Fin 1024) (hjj : jj.val = j.val) (h : 514 < 640) :
    acc f lab jj ⟨514, h⟩ = segCnt lab j := by
  rw [acc_eq_sum_filter f lab j jj hjj]
  unfold segCnt
  exact Finset.sum_congr rfl fun i _ => aug_514 f i h

theorem acc_col (hf : ∀ i k, f i k = (fR i k : EReal)) (j : Fin 1000) (jj : Fin 1024)
    (hjj : jj.val = j.val) (k : Fin 512) (h : k.val < 640) :
    acc f lab jj ⟨k.val, h⟩ = ((∑ i ∈ univ.filter (fun i => lab i = j), fR i k : ℝ) : EReal) := by
  rw [acc_eq_sum_filter f lab j jj hjj, coe_sum_real]
  refine Finset.sum_congr rfl fun i _ => ?_
  rw [aug_lt, hf]

theorem acc_sqn (hf : ∀ i k, f i k = (fR i k : EReal)) (j : Fin 1000) (jj : Fin 1024)
    (hjj : jj.val = j.val) (h : 512 < 640) :
    acc f lab jj ⟨512, h⟩
      = ((∑ i ∈ univ.filter (fun i => lab i = j), ∑ k, fR i k * fR i k : ℝ) : EReal) := by
  rw [acc_eq_sum_filter f lab j jj hjj, coe_sum_real]
  refine Finset.sum_congr rfl fun i _ => ?_
  rw [aug_512, sqn_coe f fR hf]

/-- A finite number minus itself is zero, so the third augmented column sums to zero. -/
theorem acc_zero (hf : ∀ i k, f i k = (fR i k : EReal)) (j : Fin 1000) (jj : Fin 1024)
    (hjj : jj.val = j.val) (h : 513 < 640) :
    acc f lab jj ⟨513, h⟩ = 0 := by
  rw [acc_eq_sum_filter f lab j jj hjj]
  refine Finset.sum_eq_zero fun i _ => ?_
  rw [aug_513, sqn_coe f fR hf, ← EReal.coe_sub, sub_self, EReal.coe_zero]

theorem cpad_eq (j : Fin 1000) (jj : Fin 1024) (hjj : jj.val = j.val) (k : Fin 512) :
    cpad cn jj k = cn j k := by
  unfold cpad
  have hlt : jj.val < 1000 := by omega
  rw [dif_pos hlt]
  have : (⟨jj.val, hlt⟩ : Fin 1000) = j := Fin.ext hjj
  rw [this]

/-- The class's summed squared distances, as a real number. -/
theorem segSum_coe (hf : ∀ i k, f i k = (fR i k : EReal)) (hc : ∀ j k, cn j k = (cR j k : EReal))
    (j : Fin 1000) :
    segSum f cn lab j
      = ((∑ i ∈ univ.filter (fun i => lab i = j), ∑ k, (fR i k - cR j k) * (fR i k - cR j k) : ℝ)
          : EReal) := by
  unfold segSum
  rw [coe_sum_real]
  refine Finset.sum_congr rfl fun i hi => ?_
  have hl : lab i = j := (Finset.mem_filter.mp hi).2
  unfold dist
  rw [coe_sum_real]
  refine Finset.sum_congr rfl fun k _ => ?_
  rw [hf, hc, hl, ← EReal.coe_sub, ← EReal.coe_mul]

/-- The expanded square the kernel evaluates is the class's summed squared distances. -/
theorem kerSums_eq_segSum (hf : ∀ i k, f i k = (fR i k : EReal))
    (hc : ∀ j k, cn j k = (cR j k : EReal)) (j : Fin 1000) (jj : Fin 1024) (hjj : jj.val = j.val) :
    kerSums f cn lab jj = segSum f cn lab j := by
  have hdot : (∑ k : Fin 512, cpad cn jj k * acc f lab jj ⟨k.val, by omega⟩)
      = ((∑ k, cR j k * ∑ i ∈ univ.filter (fun i => lab i = j), fR i k : ℝ) : EReal) := by
    rw [coe_sum_real]
    refine Finset.sum_congr rfl fun k _ => ?_
    rw [cpad_eq cn j jj hjj, hc, acc_col f lab fR hf j jj hjj, EReal.coe_mul]
  have hcc : (∑ k : Fin 512, cpad cn jj k * cpad cn jj k) = ((∑ k, cR j k * cR j k : ℝ) : EReal) := by
    rw [coe_sum_real]
    refine Finset.sum_congr rfl fun k _ => ?_
    rw [cpad_eq cn j jj hjj, hc, EReal.coe_mul]
  unfold kerSums
  rw [hdot, hcc, acc_sqn f lab fR hf j jj hjj, acc_zero f lab fR hf j jj hjj, acc_cnt f lab j jj hjj,
    segCnt_coe, segSum_coe f cn lab fR cR hf hc, sum_sq_dist_expand, add_zero]
  have h2 : (2 : EReal) = ((2 : ℝ) : EReal) := by norm_cast
  rw [h2, ← EReal.coe_mul, ← EReal.coe_sub, ← EReal.coe_mul, ← EReal.coe_add]

theorem segSum_nonneg (hf : ∀ i k, f i k = (fR i k : EReal)) (hc : ∀ j k, cn j k = (cR j k : EReal))
    (j : Fin 1000) : 0 ≤ segSum f cn lab j := by
  rw [segSum_coe f cn lab fR cR hf hc, EReal.coe_nonneg]
  exact Finset.sum_nonneg fun i _ => Finset.sum_nonneg fun k _ => mul_self_nonneg _

/-- A positive count is at least one. -/
theorem one_le_segCnt (j : Fin 1000) (h : 0 < segCnt lab j) : 1 ≤ segCnt lab j := by
  rw [segCnt_coe] at h ⊢
  rw [EReal.coe_pos, Nat.cast_pos] at h
  rw [← EReal.coe_one, EReal.coe_le_coe_iff]
  exact_mod_cast h

/-- On a true class the kernel's share is the reference's. -/
theorem kerPer_eq_refPer (hf : ∀ i k, f i k = (fR i k : EReal))
    (hc : ∀ j k, cn j k = (cR j k : EReal)) (j : Fin 1000) (jj : Fin 1024) (hjj : jj.val = j.val) :
    kerPer f cn lab jj = refPer f cn lab j := by
  unfold kerPer refPer
  rw [acc_cnt f lab j jj hjj]
  by_cases hpos : 0 < segCnt lab j
  · rw [if_pos hpos, if_pos hpos, kerSums_eq_segSum f cn lab fR cR hf hc j jj hjj,
      max_eq_left (segSum_nonneg f cn lab fR cR hf hc j), max_eq_left (one_le_segCnt lab j hpos)]
  · rw [if_neg hpos, if_neg hpos]

/-- The 1024 padded classes contribute what the 1000 true classes do, the other 24 nothing. -/
theorem sum_kerPer (hf : ∀ i k, f i k = (fR i k : EReal)) (hc : ∀ j k, cn j k = (cR j k : EReal)) :
    ∑ jj : Fin 1024, kerPer f cn lab jj = ∑ j : Fin 1000, refPer f cn lab j := by
  have hsplit := Fin.sum_univ_add (M := EReal) (a := 1000) (b := 24) (fun jj => kerPer f cn lab jj)
  have hpadz : ∑ i : Fin 24, kerPer f cn lab (Fin.natAdd 1000 i) = 0 :=
    Finset.sum_eq_zero fun i _ => kerPer_pad f cn lab _ (by rw [Fin.coe_natAdd]; omega)
  have hmain : ∑ j : Fin 1000, kerPer f cn lab (Fin.castAdd 24 j) = ∑ j : Fin 1000, refPer f cn lab j :=
    Finset.sum_congr rfl fun j _ =>
      kerPer_eq_refPer f cn lab fR cR hf hc j _ (Fin.coe_castAdd 24 j)
  rw [← hmain, ← add_zero (∑ j : Fin 1000, kerPer f cn lab (Fin.castAdd 24 j)), ← hpadz]
  exact hsplit

end RealEntries

/-- With real entries, the kernel's loss is the reference's. -/
theorem kerLoss_eq_refLoss (f : Fin 65536 → Fin 512 → EReal) (cn : Fin 1000 → Fin 512 → EReal)
    (lab : Fin 65536 → Fin 1000)
    (hf : ∀ i k, ∃ r : ℝ, f i k = (r : EReal)) (hc : ∀ j k, ∃ r : ℝ, cn j k = (r : EReal)) :
    kerLoss f cn lab = refLoss f cn lab := by
  choose fR hfR using hf
  choose cR hcR using hc
  unfold kerLoss refLoss
  rw [sum_kerPer f cn lab fR cR hfR hcR]

end Cert.CenterLoss

end
-- ==== Proof.PreDecode.lean ====
/-
  The printed precondition, read back.

  The predicate `finite_inputs` says: every feature and every center has absolute value below +∞, and every label
  lies in [0, 1000) as a signed 32-bit word; the three statements are and-ed into one bit.  Here that bit being one
  is turned into the facts the proof uses: every feature and every center is a real number (not ±∞), and every
  label, read as a natural number, is below 1000.

  Each `all` is a reduction by `and` from the constant one into a result with a single index; such a reduction is
  one exactly when every operand element is one.  An element of the float masks is the comparison
  `max x (-x) < ⊤`, which fails at x = ⊤ and at x = ⊥ (where `-x = ⊤`), so x is a real.  An element of the label
  mask is `0 ≤ x` and `x < 1000` on the signed reading of x; a word whose signed reading is in [0, 1000) has the
  same unsigned reading.
-/
import proofs.«404159_j25305947308120_3_alg».proof.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.CenterLoss

open Idealize.ShloMosaic Idealize.ShloMosaic.ValueIdx

/-- A rank-0 array has one index. -/
instance : Subsingleton Cert.Pre_finite_inputs.S_.Idx := ⟨fun a b => funext fun d => d.elim0⟩

/-- The f32 pattern 0x7F800000 denotes +∞. -/
theorem ofBits_inf : Ideal.ofBits .f32 0x7F800000#32 = (⊤ : EReal) := by
  simp [Ideal.ofBits, Ideal.ieee]

/-- `|x| < +∞` holds only at a real. -/
theorem real_of_abs_lt_top (x : EReal) (h : Ideal.cmp .olt (max x (-x)) (⊤ : EReal) = 1#1) :
    ∃ r : ℝ, x = (r : EReal) := by
  induction x using EReal.rec with
  | bot => simp [Ideal.cmp] at h
  | coe r => exact ⟨r, rfl⟩
  | top => simp [Ideal.cmp] at h

/-- A word in [0, 1000) on its signed reading is below 1000 on its unsigned reading. -/
theorem toNat_lt_of_signed_range (w : BitVec 32)
    (h : IntOp.andi (IntOp.cmpi .sge w 0#32) (IntOp.cmpi .slt w 1000#32) = 1#1) : w.toNat < 1000 := by
  obtain ⟨h0, h1⟩ := IntOp.andi_eq_one.1 h
  unfold IntOp.cmpi at h0 h1
  rw [StableHlo.Predicate.ofBool_eq_one_iff] at h0 h1
  simp only [BitVec.slt, BitVec.sle, decide_eq_true_eq] at h0 h1
  have h32 := w.isLt
  have z : (0#32 : BitVec 32).toInt = 0 := by decide
  have k : (1000#32 : BitVec 32).toInt = 1000 := by decide
  rw [z] at h0
  rw [k] at h1
  rw [BitVec.toInt_eq_toNat_cond] at h0 h1
  split at h0 <;> omega

/-- THE PRECONDITION DECODED: the predicate's bit being one makes every feature and every center a real number and
    every label, as a natural number, below 1000. -/
theorem pre_decode [hP : Cert.Pre_finite_inputs.Facts]
    (a0 : FVec Ideal Cert.Pre_finite_inputs.S65536x512 .f32) (a1 : FVec Ideal Cert.Pre_finite_inputs.S1000x512 .f32)
    (a2 : IVec Cert.Pre_finite_inputs.S65536 32)
    (h : Cert.Pre_finite_inputs.fn (F := Ideal) a0 a1 a2 = fun _ => 1#1) :
    (∀ i, ∃ r : ℝ, a0 i = (r : EReal)) ∧ (∀ i, ∃ r : ℝ, a1 i = (r : EReal)) ∧ (∀ i, (a2 i).toNat < 1000) := by
  have e := congrFun h ix0
  dsimp only [Cert.Pre_finite_inputs.fn] at e
  obtain ⟨e01, e2⟩ := IntOp.andi_eq_one.1 e
  obtain ⟨e0, e1⟩ := IntOp.andi_eq_one.1 e01
  refine ⟨fun i => ?_, fun i => ?_, fun i => ?_⟩
  · have k := Host.reduce_andi_all _ _ _ _ ix0 e0 i
    apply real_of_abs_lt_top
    rw [← ofBits_inf]
    exact k
  · have k := Host.reduce_andi_all _ _ _ _ ix0 e1 i
    apply real_of_abs_lt_top
    rw [← ofBits_inf]
    exact k
  · have k := Host.reduce_andi_all _ _ _ _ ix0 e2 i
    exact toNat_lt_of_signed_range _ k

end Cert.CenterLoss

end
-- ==== Proof.Consts.lean ====
/- The float constants the two programs spell, as the extended reals their bit patterns denote at the ideal
   instance.  One module states them all, so that the modules reading a constant unfold neither the decoding of
   a pattern nor the format's fields. -/
import Idealize.ShloMosaic.PureOps.Ideal
import Idealize.ShloMosaic.PureOps.Ideal.Laws

noncomputable section

namespace Cert.Consts

open Idealize.ShloMosaic

/-- The single-precision pattern of `1.0` denotes `1`. -/
theorem ofBits_f32_one : Ideal.ofBits .f32 0x3F800000#32 = (1 : EReal) := by
  simp [Ideal.ofBits, Ideal.ieee, -EReal.coe_mul]; norm_num

/-- The single-precision pattern of `2.0` denotes `2`. -/
theorem ofBits_f32_two : Ideal.ofBits .f32 0x40000000#32 = (2 : EReal) := by
  simp [Ideal.ofBits, Ideal.ieee, -EReal.coe_mul]; norm_num; norm_cast

/-- The single-precision pattern of `512.0` denotes `512`. -/
theorem ofBits_f32_512 : Ideal.ofBits .f32 0x44000000#32 = (512 : EReal) := by
  simp [Ideal.ofBits, Ideal.ieee, -EReal.coe_mul]; norm_num; norm_cast

/-- The single-precision pattern of `65536.0` denotes `65536`. -/
theorem ofBits_f32_65536 : Ideal.ofBits .f32 0x47800000#32 = (65536 : EReal) := by
  simp [Ideal.ofBits, Ideal.ieee, -EReal.coe_mul]; norm_num; norm_cast

/-- The bfloat16 pattern of `1.0` denotes `1`. -/
theorem ofBits_bf16_one : Ideal.ofBits .bf16 0x3F80#16 = (1 : EReal) := by
  simp [Ideal.ofBits, Ideal.ieee, -EReal.coe_mul]; norm_num

/-- The bfloat16 pattern of `+0.0` denotes `0`. -/
theorem ofBits_bf16_zero : Ideal.ofBits .bf16 0x0000#16 = (0 : EReal) := by
  simp [Ideal.ofBits, Ideal.ieee]

end Cert.Consts

end
-- ==== Proof.RefValue.lean ====
/-
  The reference program's result is the specification's `refLoss`.

  The reference wraps a negative label by the number of classes (a label below 1000 is left as it is), gathers each
  row's own center out of the table, squares the difference and sums it along the row (`dist`), adds the distances
  and the ones up class by class (two accumulating scatters: `segSum`, `segCnt`), divides where the count is
  positive (`refPer`), adds the 1000 quotients and divides by the number of rows.  Each step is read at an index
  here, the two data-dependent ones (the gather, the scatters) by a lemma about their dimension numbers.
-/
import proofs.«404159_j25305947308120_3_alg».proof.Proof.RefRead
import proofs.«404159_j25305947308120_3_alg».proof.Proof.Spec
import proofs.«404159_j25305947308120_3_alg».proof.Proof.Consts
import Idealize.ShloMosaic.Lib.ValueIdx
import Idealize.ShloMosaic.Lib.ValueIdxRank1
import Idealize.ShloMosaic.PureOps.Ideal.Laws
import Idealize.ShloMosaic.Lib.StableHlo.Predicate

noncomputable section

open scoped BigOperators
open Finset

namespace Cert.CenterLoss

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Idealize.ShloMosaic.StableHlo.Predicate

/-! ## The label wrap -/

/-- A label word below 1000 is not negative: the wrap leaves it. -/
theorem wrap_label (w : BitVec 32) (h : w.toNat < 1000) :
    Scalar.select (IntOp.cmpi .slt w 0#32) (IntOp.addi w 1000#32) w = w := by
  have hn : ¬ IntOp.cmpi .slt w 0#32 = 1#1 := by
    rw [slt_iff_toNat (by omega) (by decide)]
    simp
  exact if_neg hn

/-- The wrapped labels are the labels. -/
theorem v4_eq (x2 : (⟨S65536, .i32⟩ : BufTy).Contents (Elt Ideal)) (hL : ∀ i, (x2 i).toNat < 1000) (i : S65536.Idx) :
    val_main_v4 (F := Ideal) x2 i = x2 i := by
  rw [val_main_v4_apply, val_main_v1_apply, val_main_v3_apply, val_main_v0_apply, val_main_v2_apply, val_main_c_apply,
    val_main_c_0_apply]
  exact wrap_label _ (hL i)

/-- A label word below 1000 read signed is its value. -/
theorem label_toInt (w : BitVec 32) (h : w.toNat < 1000) : w.toInt = (w.toNat : Int) :=
  toInt_eq_toNat_of_lt (by omega)

/-! ## The gather: row `i` of the result is the table's row at row `i`'s label -/

/-- The start-index column at row `i` is the wrapped label of row `i`, which is the label. -/
theorem v5_eq (x2 : (⟨S65536, .i32⟩ : BufTy).Contents (Elt Ideal)) (hL : ∀ i, (x2 i).toNat < 1000) (j : S65536x1.Idx) :
    val_main_v5 (F := Ideal) x2 j = x2 (ix1 (j 0)) := by
  rw [val_main_v5_apply, v4_eq x2 hL]
  exact congrArg x2 (funext fun a => Fin.ext (by match a with | ⟨0, _⟩ => rfl))

/-- The gather at (row `i`, column `k`): the table at (the start index of row `i` read signed and clamped into the
    table, column `k`). -/
theorem gather_apply {α : Type} {w : Nat} (x : S1000x512.Idx → α) (idx : IVec S65536x1 w) (i : Fin 65536) (k : Fin 512) :
    Host.gather gather_S1000x512_S65536x1_S65536x512_1_0_n_n_0_1_1512 x idx (ix2 i k)
      = x (ix2 ⟨min (idx (ix2 i 0)).toInt.toNat 999, by omega⟩ k) := by
  unfold Host.gather
  congr 1
  funext a
  refine Fin.ext ?_
  match a with
  | ⟨0, _⟩ =>
    show GatherDims.start _ (ix2 i k) idx 0 + GatherDims.batchCoord _ (ix2 i k) 0 + GatherDims.offCoord _ (ix2 i k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1000x512_S65536x1_S65536x512_1_0_n_n_0_1_1512.startIndexMap from
      List.mem_singleton.mpr rfl)]
    have hsi : gather_S1000x512_S65536x1_S65536x512_1_0_n_n_0_1_1512.siIdx (ix2 i k)
        ⟨List.idxOf (0 : Fin 2) gather_S1000x512_S65536x1_S65536x512_1_0_n_n_0_1_1512.startIndexMap,
          List.idxOf_lt_length_iff.2 (List.mem_singleton.mpr rfl)⟩ = ix2 i 0 := by
      funext b; refine Fin.ext ?_
      match b with
      | ⟨0, _⟩ => rfl
      | ⟨1, _⟩ => rfl
    rw [hsi]
    rfl
  | ⟨1, _⟩ =>
    show GatherDims.start _ (ix2 i k) idx 1 + GatherDims.batchCoord _ (ix2 i k) 1 + GatherDims.offCoord _ (ix2 i k) 1 = _
    rw [GatherDims.batchCoord_eq_zero _ _ _ List.not_mem_nil]
    unfold GatherDims.start
    rw [dif_neg (show ¬ (1 : Fin 2) ∈ gather_S1000x512_S65536x1_S65536x512_1_0_n_n_0_1_1512.startIndexMap by decide)]
    simp only [Nat.add_zero, Nat.zero_add]
    rfl

/-! ## The scatters: class `c` receives the updates of the rows whose label is `c` -/

/-- The start of update row `r`'s window on the classes' axis: row `r`'s index word, read signed. -/
theorem scatter_start {w : Nat} (idx : IVec S65536x1 w) (r : Fin 65536) (a : Fin 1) :
    scatter_S1000_S65536x1_S65536_n_0_0_1.start (ix1 r) idx a = (idx (ix2 r 0)).toInt := by
  obtain rfl : a = 0 := Subsingleton.elim _ _
  unfold ScatterDims.start
  rw [dif_pos (show (0 : Fin 1) ∈ scatter_S1000_S65536x1_S65536_n_0_0_1.scatterDimsToOperandDims from
    List.mem_singleton.mpr rfl)]
  have hsi : scatter_S1000_S65536x1_S65536_n_0_0_1.siIdx (ix1 r)
      ⟨List.idxOf (0 : Fin 1) scatter_S1000_S65536x1_S65536_n_0_0_1.scatterDimsToOperandDims,
        List.idxOf_lt_length_iff.2 (List.mem_singleton.mpr rfl)⟩ = ix2 r 0 := by
    funext b; refine Fin.ext ?_
    match b with
    | ⟨0, _⟩ => rfl
    | ⟨1, _⟩ => rfl
  rw [hsi]

/-- The classes' axis is inserted: an update has no window coordinate on it. -/
theorem scatter_window (r : Fin 65536) (a : Fin 1) :
    scatter_S1000_S65536x1_S65536_n_0_0_1.window (ix1 r) a = 0 := by
  obtain rfl : a = 0 := Subsingleton.elim _ _
  unfold ScatterDims.window
  rw [dif_neg (show ¬ (0 : Fin 1) ∈ scatter_S1000_S65536x1_S65536_n_0_0_1.sKept by decide)]

/-- Update row `r` lands on class `c` exactly when row `r`'s index word, read signed, is `c`. -/
theorem scatter_lands {w : Nat} (idx : IVec S65536x1 w) (r : Fin 65536) (c : Fin 1000) :
    scatter_S1000_S65536x1_S65536_n_0_0_1.resultIdx? (ix1 r) idx = some (ix1 c)
      ↔ (idx (ix2 r 0)).toInt = (c.val : Int) := by
  have hsz : (S1000.size 0 : Int) = 1000 := rfl
  constructor
  · intro h
    unfold ScatterDims.resultIdx? at h
    split at h
    · rename_i hc
      have h0 := hc 0
      have hv := congrArg (fun f : S1000.Idx => (f 0).val) (Option.some.inj h)
      simp only [scatter_start, scatter_window] at h0 hv
      have hcv : ((ix1 c : S1000.Idx) 0).val = c.val := rfl
      omega
    · exact absurd h (by simp)
  · intro h
    have hc : ∀ a, 0 ≤ scatter_S1000_S65536x1_S65536_n_0_0_1.start (ix1 r) idx a
          + scatter_S1000_S65536x1_S65536_n_0_0_1.window (ix1 r) a
        ∧ scatter_S1000_S65536x1_S65536_n_0_0_1.start (ix1 r) idx a
          + scatter_S1000_S65536x1_S65536_n_0_0_1.window (ix1 r) a < S1000.size a := by
      intro a
      obtain rfl : a = 0 := Subsingleton.elim _ _
      rw [scatter_start, scatter_window, h, hsz]
      have := c.isLt
      omega
    unfold ScatterDims.resultIdx?
    rw [dif_pos hc]
    congr 1
    funext a
    obtain rfl : a = 0 := Subsingleton.elim _ _
    refine Fin.ext ?_
    show (scatter_S1000_S65536x1_S65536_n_0_0_1.start (ix1 r) idx 0
      + scatter_S1000_S65536x1_S65536_n_0_0_1.window (ix1 r) 0).toNat = c.val
    rw [scatter_start, scatter_window, h]
    omega

/-- With labels below 1000, update row `r` lands on class `c` exactly when `c` is row `r`'s class. -/
theorem lands_iff (x2 : (⟨S65536, .i32⟩ : BufTy).Contents (Elt Ideal)) (hL : ∀ i, (x2 i).toNat < 1000)
    (r : Fin 65536) (c : Fin 1000) :
    scatter_S1000_S65536x1_S65536_n_0_0_1.resultIdx? (ix1 r) (val_main_v11 (F := Ideal) x2) = some (ix1 c)
      ↔ labOf x2 r = c := by
  rw [scatter_lands, val_main_v11_apply]
  have hidx : idx_main_v11 (ix2 r 0) = ix1 r := funext fun a => Fin.ext (by match a with | ⟨0, _⟩ => rfl)
  rw [hidx, label_toInt _ (hL _)]
  constructor
  · intro h
    refine Fin.ext ?_
    rw [labOf_val _ _ (hL _)]
    exact_mod_cast h
  · intro h
    rw [← h, labOf_val _ _ (hL _)]

/-- The accumulating scatter at class `c`, labels below 1000: the operand's element plus the updates of the rows of
    class `c`. -/
theorem scatterAdd_apply (x2 : (⟨S65536, .i32⟩ : BufTy).Contents (Elt Ideal)) (hL : ∀ i, (x2 i).toNat < 1000)
    (x : FVec Ideal S1000 .f32) (upd : FVec Ideal S65536 .f32) (c : Fin 1000) :
    Host.scatterAdd (F := Ideal) scatter_S1000_S65536x1_S65536_n_0_0_1 x (val_main_v11 (F := Ideal) x2) upd (ix1 c)
      = x (ix1 c) + ∑ r ∈ univ.filter (fun r => labOf x2 r = c), upd (ix1 r) := by
  show Ideal.hostScatterAdd _ x _ upd (ix1 c) = _
  unfold Ideal.hostScatterAdd
  refine congrArg (x (ix1 c) + ·) ?_
  refine Finset.sum_bij' (fun j _ => j 0) (fun r _ => ix1 r) (fun j hj => ?_) (fun r hr => ?_)
    (fun j _ => (eq_ix1 j).symm) (fun r _ => rfl) (fun j _ => congrArg upd (eq_ix1 j))
  · exact mem_filter.2 ⟨mem_univ _, (lands_iff x2 hL (j 0) c).1 (Eq.mp (congrArg (fun t =>
      scatter_S1000_S65536x1_S65536_n_0_0_1.resultIdx? t (val_main_v11 (F := Ideal) x2) = some (ix1 c)) (eq_ix1 j))
      (mem_filter.1 hj).2)⟩
  · exact mem_filter.2 ⟨mem_univ _, (lands_iff x2 hL r c).2 (mem_filter.1 hr).2⟩

/-! ## The stages -/

/-- The gathered table at (row `i`, column `k`): the center of row `i`'s class at column `k`. -/
theorem v6_eq (x1 : (⟨S1000x512, .f32⟩ : BufTy).Contents (Elt Ideal)) (x2 : (⟨S65536, .i32⟩ : BufTy).Contents (Elt Ideal))
    (hL : ∀ i, (x2 i).toNat < 1000) (i : Fin 65536) (k : Fin 512) :
    val_main_v6 (F := Ideal) x1 x2 (ix2 i k) = cOf x1 (labOf x2 i) k := by
  unfold val_main_v6
  rw [gather_apply]
  unfold cOf
  refine congrArg x1 (congrArg (fun p => ix2 p k) (Fin.ext ?_))
  show min (val_main_v5 (F := Ideal) x2 (ix2 i 0)).toInt.toNat 999 = (labOf x2 i).val
  rw [v5_eq x2 hL, labOf_val _ _ (hL _)]
  show min (x2 (ix1 i)).toInt.toNat 999 = (x2 (ix1 i)).toNat
  have h1 := hL (ix1 i)
  have h2 := label_toInt _ h1
  omega

/-- Row `i`'s sum of squared differences is its distance to its class's center. -/
theorem v9_eq (x0 : (⟨S65536x512, .f32⟩ : BufTy).Contents (Elt Ideal)) (x1 : (⟨S1000x512, .f32⟩ : BufTy).Contents (Elt Ideal))
    (x2 : (⟨S65536, .i32⟩ : BufTy).Contents (Elt Ideal)) (hL : ∀ i, (x2 i).toNat < 1000) (i : Fin 65536) :
    val_main_v9 (F := Ideal) x0 x1 x2 (ix1 i) = dist (fOf x0) (cOf x1) (labOf x2) i := by
  rw [val_main_v9_apply, val_main_cst_apply, Ideal.ofBits_def, Ideal.ofBits_zero_f32, zero_add]
  unfold dist
  refine Finset.sum_congr rfl fun k _ => ?_
  have hidx : idx_main_v9 (ix1 i) k = ix2 i k :=
    funext fun a => Fin.ext (by match a with | ⟨0, _⟩ => rfl | ⟨1, _⟩ => rfl)
  rw [hidx, val_main_v8_apply, val_main_v7_apply, v6_eq x1 x2 hL]
  rfl

/-- Class `c`'s scattered distances. -/
theorem v12_eq (x0 : (⟨S65536x512, .f32⟩ : BufTy).Contents (Elt Ideal)) (x1 : (⟨S1000x512, .f32⟩ : BufTy).Contents (Elt Ideal))
    (x2 : (⟨S65536, .i32⟩ : BufTy).Contents (Elt Ideal)) (hL : ∀ i, (x2 i).toNat < 1000) (c : Fin 1000) :
    val_main_v12 (F := Ideal) x0 x1 x2 (ix1 c) = segSum (fOf x0) (cOf x1) (labOf x2) c := by
  unfold val_main_v12
  rw [scatterAdd_apply x2 hL, val_main_v10_apply, val_main_cst_1_apply, Ideal.ofBits_def, Ideal.ofBits_zero_f32, zero_add]
  unfold segSum
  exact Finset.sum_congr rfl fun r _ => v9_eq x0 x1 x2 hL r

/-- Class `c`'s scattered ones: its number of rows. -/
theorem v16_eq (x2 : (⟨S65536, .i32⟩ : BufTy).Contents (Elt Ideal)) (hL : ∀ i, (x2 i).toNat < 1000) (c : Fin 1000) :
    val_main_v16 (F := Ideal) x2 (ix1 c) = segCnt (labOf x2) c := by
  unfold val_main_v16
  rw [show val_main_v15 (F := Ideal) x2 = val_main_v11 (F := Ideal) x2 from rfl, scatterAdd_apply x2 hL,
    val_main_v14_apply, val_main_cst_3_apply, Ideal.ofBits_def, Ideal.ofBits_zero_f32, zero_add]
  unfold segCnt
  refine Finset.sum_congr rfl fun r _ => ?_
  rw [val_main_v13_apply, val_main_cst_2_apply, Ideal.ofBits_def, Cert.Consts.ofBits_f32_one]

/-- Class `c`'s quotient where its count is positive, zero elsewhere. -/
theorem v22_eq (x0 : (⟨S65536x512, .f32⟩ : BufTy).Contents (Elt Ideal)) (x1 : (⟨S1000x512, .f32⟩ : BufTy).Contents (Elt Ideal))
    (x2 : (⟨S65536, .i32⟩ : BufTy).Contents (Elt Ideal)) (hL : ∀ i, (x2 i).toNat < 1000) (c : Fin 1000) :
    val_main_v22 (F := Ideal) x0 x1 x2 (ix1 c) = refPer (fOf x0) (cOf x1) (labOf x2) c := by
  rw [val_main_v22_apply, val_main_v18_apply, val_main_v21_apply, val_main_v20_apply, v12_eq x0 x1 x2 hL, v16_eq x2 hL,
    val_main_v17_apply, val_main_cst_4_apply, val_main_v19_apply, val_main_cst_5_apply, val_main_call0_v1_apply,
    val_main_call0_v0_apply, val_main_cst_6_apply]
  simp only [Ideal.ofBits_def, Ideal.ofBits_zero_f32, Cert.Consts.ofBits_f32_512, Ideal.cmpf_def, Ideal.hostDivf_def,
    Ideal.mulf_def]
  have hcmp : Ideal.cmp .ogt (segCnt (labOf x2) c) 0 = BitVec.ofBool (decide (0 < segCnt (labOf x2) c)) := rfl
  rw [hcmp]
  unfold refPer
  by_cases h : 0 < segCnt (labOf x2) c
  · rw [if_pos h]
    exact if_pos ((ofBool_eq_one_iff _).2 (decide_eq_true h))
  · rw [if_neg h]
    exact if_neg fun hh => h (of_decide_eq_true ((ofBool_eq_one_iff _).1 hh))

/-! ## The result -/

/-- THE REFERENCE'S RESULT, labels below 1000: the specification's `refLoss` of the arrays read by coordinates. -/
theorem ref_value (x0 : (⟨Cert.ReferenceIdeal.S65536x512, .f32⟩ : BufTy).Contents (Elt Ideal))
    (x1 : (⟨Cert.ReferenceIdeal.S1000x512, .f32⟩ : BufTy).Contents (Elt Ideal))
    (x2 : (⟨Cert.ReferenceIdeal.S65536, .i32⟩ : BufTy).Contents (Elt Ideal)) (hL : ∀ i, (x2 i).toNat < 1000) :
    Cert.ReferenceIdeal.Read.val_main_v24 (F := Ideal) x0 x1 x2
      = fun _ => Cert.CenterLoss.refLoss (Cert.CenterLoss.fOf x0) (Cert.CenterLoss.cOf x1) (Cert.CenterLoss.labOf x2) := by
  funext i
  rw [val_main_v24_apply, val_main_v23_apply, val_main_cst_7_apply, val_main_cst_8_apply]
  simp only [Ideal.ofBits_def, Ideal.ofBits_zero_f32, Cert.Consts.ofBits_f32_65536, Ideal.hostDivf_def, zero_add]
  unfold refLoss
  refine congrArg (fun s => Ideal.div s 65536) ?_
  rw [← Equiv.sum_comp (idxEquiv1 (n := 1000)).symm]
  exact Finset.sum_congr rfl fun c _ => v22_eq x0 x1 x2 hL c

end Cert.CenterLoss

end
-- ==== Proof.KernelTail.lean ====
/-
  The kernel program's host operations after its region, as one function of the region's output array and the
  centers.

  The region leaves a [2, 1024, 640] array: per pass over half the rows, per padded class, the sums of the rows'
  augmented columns.  The operations after it add the two passes, slice out the column sums, the two squared-norm
  columns and the count column, pad the centers with 24 zero rows, and form, class by class, the expanded square
  clamped at zero, divided by 512 times the count clamped at one where the count is positive; the classes' shares are
  summed and the sum divided by 65536.
-/
import proofs.«404159_j25305947308120_3_alg».proof.Proof.Gen.KernelIdeal.Frame
import proofs.«404159_j25305947308120_3_alg».proof.Proof.Spec
import proofs.«404159_j25305947308120_3_alg».proof.Proof.SpecAcc
import proofs.«404159_j25305947308120_3_alg».proof.Proof.Consts
import Idealize.ShloMosaic.Lib.Pipeline.Value
import Idealize.ShloMosaic.Lib.KernelVsHost
import Idealize.ShloMosaic.PureOps.Ideal.Laws

noncomputable section

namespace Cert.CenterLoss.Tail

open Cert.KernelIdeal Cert.KernelIdeal.Gen Idealize.ShloMosaic Idealize.ShloMosaic.ValueIdx Idealize.ShloMosaic.TcCoe

/-! ## The operations, composed -/

/-- The two passes' arrays added: [1024, 640]. -/
def accTot (raw : FVec Ideal S2x1024x640 .f32) : FVec Ideal S1024x640 .f32 :=
  addf
    (shapeCast S1024x640 (extractStridedSlice S1x1024x640 ![0, 0, 0] raw slices_S2x1024x640_S1x1024x640_0_0_0) shapeCasts_S1x1024x640_S1024x640)
    (shapeCast S1024x640 (extractStridedSlice S1x1024x640 ![1, 0, 0] raw slices_S2x1024x640_S1x1024x640_1_0_0) shapeCasts_S1x1024x640_S1024x640)

/-- The centers padded with 24 zero rows: [1024, 512]. -/
def cpadV (cn : FVec Ideal S1000x512 .f32) : FVec Ideal S1024x512 .f32 :=
  pad S1024x512 ![0, 0] ![24, 0] ![0, 0] cn (sitofp (F := Ideal) .f32 (constantI S_ 32 0#32)) pads_S1000x512_S1024x512_0240_000 h_S_

/-- A scalar constant broadcast over the [1024, 1] column. -/
def colConst (b : BitVec 32) : FVec Ideal S1024x1 .f32 :=
  broadcastInDim S1024x1 ![] bcast_S_S1024x1 (constant (F := Ideal) S_ .f32 b)

/-- A [1024, 512] array's row sums as a [1024, 1] column. -/
def rowSum (x : FVec Ideal S1024x512 .f32) : FVec Ideal S1024x1 .f32 :=
  broadcastInDim S1024x1 ![0] bcast_S1024_S1024x1_0
    (Host.reduceAdd (F := Ideal) x (constant (F := Ideal) S_ .f32 0x00000000#32) reducesTo_S1024x512_S1024_d1 h_S_)

/-- The expanded square per class, from the added array and the padded centers: [1024, 1]. -/
def sumsV (a : FVec Ideal S1024x640 .f32) (cp : FVec Ideal S1024x512 .f32) : FVec Ideal S1024x1 .f32 :=
  addf
    (subf
      (addf (extractStridedSlice S1024x1 ![0, 512] a slices_S1024x640_S1024x1_0_512)
            (extractStridedSlice S1024x1 ![0, 513] a slices_S1024x640_S1024x1_0_513))
      (mulf (colConst 0x40000000#32)
            (rowSum (mulf cp (extractStridedSlice S1024x512 ![0, 0] a slices_S1024x640_S1024x512_0_0)))))
    (mulf (rowSum (mulf cp cp)) (extractStridedSlice S1024x1 ![0, 514] a slices_S1024x640_S1024x1_0_514))

/-- Each class's share: [1024, 1]. -/
def perV (a : FVec Ideal S1024x640 .f32) (cp : FVec Ideal S1024x512 .f32) : FVec Ideal S1024x1 .f32 :=
  select
    (cmpf .ogt (extractStridedSlice S1024x1 ![0, 514] a slices_S1024x640_S1024x1_0_514) (colConst 0x00000000#32))
    (Host.divf (F := Ideal)
      (maximumf (sumsV a cp) (colConst 0x00000000#32))
      (mulf (maximumf (extractStridedSlice S1024x1 ![0, 514] a slices_S1024x640_S1024x1_0_514) (colConst 0x3F800000#32))
            (colConst 0x44000000#32)))
    (broadcastInDim S1024x1 ![] bcast_S_S1024x1 (id (constant (F := Ideal) S_ .f32 0x00000000#32)))

/-- the host operations after the region, composed -/
def tailFn (raw : FVec Ideal S2x1024x640 .f32) (cn : FVec Ideal S1000x512 .f32) : FVec Ideal S_ .f32 :=
  Host.divf (F := Ideal)
    (Host.reduceAdd (F := Ideal) (perV (accTot raw) (cpadV cn)) (constant (F := Ideal) S_ .f32 0x00000000#32) reducesTo_S1024x1_S_d0_1 h_S_)
    (constant (F := Ideal) S_ .f32 0x47800000#32)

/-! ## The program's operations are that function -/

theorem tail_eq (m : (ℓ : Loc nD τ sig) → Buf (Elt Ideal) ℓ) (c : Dev nD) :
    Pipeline.afterTail₀ cfgs (dats m) 0 (V0 m) [hostOps1, hostOps1_1, hostOps1_2, hostOps1_3, hostOps1_4] c main_v35
      = tailFn ((dats m 0 c).arrAt 2 cfg0.N) (m ((c : Thread nD τ).loc main_arg1)) := by
  have h1 : Pipeline.withArrays (cfgs 0).spec c (V0 m c) (fun w => (dats m 0 c).arrAt w (cfgs 0).N) (Proc.devRef .tc main_v1)
      = (dats m 0 c).arrAt 2 cfg0.N := Pipeline.withArrays_arr spec0 launch0.win.arr_inj c _ _ 2
  have h2 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans
      (V_main_arg1 m c)
  unfold Pipeline.afterTail₀
  simp only [hostOps1, hostOps1_1, hostOps1_2, hostOps1_3, hostOps1_4, List.flatten_cons, List.flatten_nil, List.append_nil,
    List.cons_append, List.nil_append]
  after_results_simp
  rw [h1, h2]
  generalize (dats m 0 c).arrAt 2 cfg0.N = raw
  generalize m ((c : Thread nD τ).loc main_arg1) = cn
  simp only [StableHlo.TRef.ofBuf, StableHlo.TRef.toBuf, cast_eq]
  rfl

/-! ## The function's value -/

open scoped BigOperators

/-- The added array at (class, column): the two passes' entries added. -/
theorem accTot_apply (raw : FVec Ideal S2x1024x640 .f32) (j : Fin 1024) (col : Fin 640) :
    accTot raw (ix2 j col) = raw (ix3 0 j col) + raw (ix3 1 j col) := by
  unfold accTot
  rw [addf_apply]
  rw [shapeCast_apply (k := ix3 (0 : Fin 1) j col) (hk := by rw [Shape.rowMajor_val_three, Shape.rowMajor_val_two]; simp),
    shapeCast_apply (k := ix3 (0 : Fin 1) j col) (hk := by rw [Shape.rowMajor_val_three, Shape.rowMajor_val_two]; simp)]
  rw [extractStridedSlice_apply (k := ix3 (0 : Fin 2) j col) (hk := fun a => match a with
      | ⟨0, _⟩ => rfl | ⟨1, _⟩ => (Nat.zero_add _).symm | ⟨2, _⟩ => (Nat.zero_add _).symm),
    extractStridedSlice_apply (k := ix3 (1 : Fin 2) j col) (hk := fun a => match a with
      | ⟨0, _⟩ => rfl | ⟨1, _⟩ => (Nat.zero_add _).symm | ⟨2, _⟩ => (Nat.zero_add _).symm)]

/-- The leading 512 columns sliced out. -/
theorem sliceS_apply (a : FVec Ideal S1024x640 .f32) (j : Fin 1024) (k : Fin 512) :
    extractStridedSlice S1024x512 ![0, 0] a slices_S1024x640_S1024x512_0_0 (ix2 j k) = a (ix2 j ⟨k.val, by omega⟩) :=
  extractStridedSlice_apply _ a _ _ (ix2 j (⟨k.val, by omega⟩ : Fin 640)) (fun b => match b with
      | ⟨0, _⟩ => (Nat.zero_add _).symm | ⟨1, _⟩ => (Nat.zero_add _).symm)

/-- One column sliced out. -/
theorem sliceCol_apply (off : Nat) (hoff : off < 640) (h : S1024x640.Slices ![0, off] S1024x1) (a : FVec Ideal S1024x640 .f32)
    (j : Fin 1024) (z : Fin 1) :
    extractStridedSlice S1024x1 ![0, off] a h (ix2 j z) = a (ix2 j ⟨off, hoff⟩) :=
  extractStridedSlice_apply _ a _ _ (ix2 j (⟨off, hoff⟩ : Fin 640)) (fun b => match b with
      | ⟨0, _⟩ => (Nat.zero_add _).symm | ⟨1, _⟩ => by show off = off + z.val; omega)

/-- A broadcast constant read anywhere is the constant. -/
theorem colConst_apply (b : BitVec 32) (i : S1024x1.Idx) : colConst b i = Ideal.ofBits .f32 b := rfl

/-- The padded centers at (class, column): the center's entry below class 1000, zero from there on. -/
theorem cpadV_apply (cn : FVec Ideal S1000x512 .f32) (j : Fin 1024) (k : Fin 512) :
    cpadV cn (ix2 j k) = Cert.CenterLoss.cpad (Cert.CenterLoss.cOf cn) j k := by
  unfold cpadV Cert.CenterLoss.cpad Cert.CenterLoss.cOf
  by_cases hj : j.val < 1000
  · rw [dif_pos hj]
    exact pad_apply_of_inside _ _ _ cn _ _ _ _ (ix2 (⟨j.val, hj⟩ : Fin 1000) k) (fun a => match a with
      | ⟨0, _⟩ => by show j.val = 0 + j.val * (0 + 1); omega
      | ⟨1, _⟩ => by show k.val = 0 + k.val * (0 + 1); omega)
  · rw [dif_neg hj]
    refine (pad_apply_of_not_inside _ _ _ cn _ _ _ _ (0 : Fin 2) (fun h => hj ?_)).trans ?_
    · have h3 : (j.val - 0) / (0 + 1) < 1000 := h.2.2
      simpa using h3
    · exact sitofp_zero

/-- A row's sum, read at the row. -/
theorem rowSum_apply (x : FVec Ideal S1024x512 .f32) (j : Fin 1024) (z : Fin 1) :
    rowSum x (ix2 j z) = ∑ k : Fin 512, x (ix2 j k) := by
  unfold rowSum
  rw [broadcastInDim_apply (k := ix1 j) (hk := fun a => match a with | ⟨0, _⟩ => rfl)]
  unfold Host.reduceAdd
  rw [Ideal.hostReduceAdd_def]
  rw [Ideal.hostReduceAdd_single reducesTo_S1024x512_S1024_d1 (by decide : S1024x512.Reduces [1] S1024)]
  rw [constant_apply, Ideal.ofBits_zero_f32, zero_add]
  exact Finset.sum_congr rfl (fun k _ => congrArg x (funext fun a => match a with
    | ⟨0, _⟩ => Fin.ext rfl | ⟨1, _⟩ => Fin.ext rfl))

/-- The expanded square at a class, in the entries of the added array and of the padded centers. -/
theorem sumsV_apply (a : FVec Ideal S1024x640 .f32) (cp : FVec Ideal S1024x512 .f32) (j : Fin 1024) (z : Fin 1) :
    sumsV a cp (ix2 j z)
      = ((a (ix2 j ⟨512, by omega⟩) + a (ix2 j ⟨513, by omega⟩))
          - 2 * (∑ k : Fin 512, cp (ix2 j k) * a (ix2 j ⟨k.val, by omega⟩)))
        + (∑ k : Fin 512, cp (ix2 j k) * cp (ix2 j k)) * a (ix2 j ⟨514, by omega⟩) := by
  unfold sumsV
  rw [addf_apply, subf_apply, addf_apply, mulf_apply, mulf_apply, colConst_apply, Cert.Consts.ofBits_f32_two,
    rowSum_apply, rowSum_apply, sliceCol_apply 512 (by omega), sliceCol_apply 513 (by omega), sliceCol_apply 514 (by omega)]
  simp only [mulf_apply, sliceS_apply]

/-- A class's share: where its count is positive, the expanded square clamped at zero over 512 times the count
    clamped at one; zero elsewhere. -/
theorem perV_apply (a : FVec Ideal S1024x640 .f32) (cp : FVec Ideal S1024x512 .f32) (j : Fin 1024) (z : Fin 1) :
    perV a cp (ix2 j z)
      = if 0 < a (ix2 j ⟨514, by omega⟩) then
          Ideal.div (max (sumsV a cp (ix2 j z)) 0) (max (a (ix2 j ⟨514, by omega⟩)) 1 * 512)
        else 0 := by
  unfold perV
  rw [select_apply, cmpf_apply, Ideal.cmpf_def]
  have hz : broadcastInDim S1024x1 ![] bcast_S_S1024x1 (id (constant (F := Ideal) S_ .f32 0x00000000#32)) (ix2 j z) = (0 : EReal) :=
    Ideal.ofBits_zero_f32
  rw [hz]
  simp only [Host.divf, Ideal.hostDivf_def, maximumf_apply, mulf_apply, colConst_apply, sliceCol_apply 514 (by omega),
    Ideal.ofBits_zero_f32, Cert.Consts.ofBits_f32_one, Cert.Consts.ofBits_f32_512, Ideal.cmp]
  by_cases h : 0 < a (ix2 j ⟨514, by omega⟩)
  · rw [if_pos h, decide_eq_true h]; exact select_one _ _
  · rw [if_neg h, decide_eq_false h]; exact select_zero _ _

theorem tailFn_value (raw : FVec Ideal S2x1024x640 .f32) (cn : FVec Ideal S1000x512 .f32) (f : Fin 65536 → Fin 512 → EReal) (lab : Fin 65536 → Fin 1000)
    (hraw : ∀ (cc : Fin 2) (j : Fin 1024) (col : Fin 640), raw (ix3 cc j col) = Cert.CenterLoss.accIco f lab (cc.val * 32768) ((cc.val + 1) * 32768) j col) :
    tailFn raw cn = fun _ => Cert.CenterLoss.kerLoss f (Cert.CenterLoss.cOf cn) lab := by
  have hacc : ∀ (j : Fin 1024) (col : Fin 640), accTot raw (ix2 j col) = Cert.CenterLoss.acc f lab j col := by
    intro j col
    rw [accTot_apply, hraw 0 j col, hraw 1 j col, Cert.CenterLoss.acc_eq_halves]
    rfl
  funext i
  unfold tailFn Cert.CenterLoss.kerLoss
  show Ideal.div _ _ = _
  rw [constant_apply, Cert.Consts.ofBits_f32_65536]
  refine congrArg (fun t : EReal => Ideal.div t 65536) ?_
  unfold Host.reduceAdd
  rw [Ideal.hostReduceAdd_def, Ideal.hostReduceAdd_total _ (fun b => b.elim0), constant_apply, Ideal.ofBits_zero_f32, zero_add,
    sum_idx2]
  refine Finset.sum_congr rfl (fun j _ => ?_)
  rw [Fin.sum_univ_one, perV_apply, sumsV_apply]
  unfold Cert.CenterLoss.kerPer Cert.CenterLoss.kerSums
  simp only [hacc, cpadV_apply]

end Cert.CenterLoss.Tail

end
-- ==== Proof.BodyPay.lean ====
/-
  The kernel body's arithmetic, one 512-row chunk at a time.

  For a chunk of 512 rows `X` with label words `Lw`, the body multiplies the one-hot matrix of the labels
  (`ohw j w` is one when class `j`'s number is the word `w`) into the rows and into the rows' three extra columns
  (squared norm, squared norm minus itself, one; then zeros), and adds the products to the accumulator's two
  column ranges.  `chunkC X Lw j col` is the chunk's contribution to entry `(j, col)`; each store's value is the
  accumulator's earlier value plus that contribution.
-/
import proofs.«404159_j25305947308120_3_alg».proof.Proof.Gen.KernelIdeal.Skeleton
import proofs.«404159_j25305947308120_3_alg».proof.Proof.Spec
import proofs.«404159_j25305947308120_3_alg».proof.Proof.Consts
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.CenterLoss.Body

open Idealize.ShloMosaic Idealize.ShloMosaic.ValueIdx Cert.KernelIdeal Cert.KernelIdeal.Gen

/-- The one-hot entry: class `j` against a label word. -/
def ohw (j : Fin 1024) (w : BitVec 32) : EReal := if BitVec.ofNat 32 j.val = w then 1 else 0

/-- A row of 512 entries augmented: the entries, the squared norm, the squared norm minus itself, a one, zeros. -/
def augRow (row : Fin 512 → EReal) (col : Fin 640) : EReal :=
  if h : col.val < 512 then row ⟨col.val, h⟩
  else if col.val = 512 then ∑ k : Fin 512, row k * row k
  else if col.val = 513 then (∑ k : Fin 512, row k * row k) - ∑ k : Fin 512, row k * row k
  else if col.val = 514 then 1 else 0

/-- A chunk's contribution to entry `(j, col)` of the accumulator. -/
def chunkC (X : Vec Ideal S512x512 .f32) (Lw : Vec Ideal S1x512 .i32) (j : Fin 1024) (col : Fin 640) : EReal :=
  ∑ r : Fin 512, ohw j (Lw (ix2 0 r)) * augRow (fun k => X (ix2 r k)) col

/-! ## The one-hot matrix -/

/-- The one-hot matrix of a label row: class numbers down the rows, compared with the label of each column, the
    comparison's bit widened and converted. -/
private def hotV (w : IVec S1x512 32) : FVec Ideal S1024x512 .bf16 :=
  truncf .bf16 (sitofp .f32 (extui 32 (cmpi .eq (iota .tc S1024x512 32 [0] iota_S1024x512_d0_w32)
    (broadcastTo S1024x512 w broadcasts_S1x512_S1024x512)) natLt_1_32)) bitsLt_bf16_f32

/-- The set bit, widened to 32 bits and converted, is one … -/
private theorem sitofp_bit_one : FloatOps.sitofp (F := Ideal) .f32 (BitVec.setWidth 32 (1#1 : BitVec 1)) = (1 : EReal) := by
  show (((BitVec.setWidth 32 (1#1 : BitVec 1)).toInt : ℝ) : EReal) = 1
  have e : (BitVec.setWidth 32 (1#1 : BitVec 1)).toInt = 1 := by decide
  rw [e]; simp

/-- … and the clear bit is zero. -/
private theorem sitofp_bit_zero : FloatOps.sitofp (F := Ideal) .f32 (BitVec.setWidth 32 (0#1 : BitVec 1)) = (0 : EReal) := by
  show (((BitVec.setWidth 32 (0#1 : BitVec 1)).toInt : ℝ) : EReal) = 0
  have e : (BitVec.setWidth 32 (0#1 : BitVec 1)).toInt = 0 := by decide
  rw [e]; simp

/-- Entry `(j, r)` of the one-hot matrix is `ohw j` of column `r`'s label word. -/
private theorem hotV_apply (w : IVec S1x512 32) (j : Fin 1024) (r : Fin 512) :
    hotV w (ix2 j r) = ohw j (w (ix2 0 r)) := by
  unfold hotV
  rw [truncf_apply, sitofp_apply, extui_apply]
  show FloatOps.sitofp (F := Ideal) .f32 ((IntOp.cmpi .eq (iota .tc S1024x512 32 [0] iota_S1024x512_d0_w32 (ix2 j r))
    (broadcastTo S1024x512 w broadcasts_S1x512_S1024x512 (ix2 j r))).setWidth 32) = _
  rw [iota_single_apply, broadcastTo_1b_ab_apply]
  show FloatOps.sitofp (F := Ideal) .f32 ((IntOp.cmpi .eq (BitVec.ofNat 32 j.val) (w (ix2 0 r))).setWidth 32) = _
  unfold ohw
  by_cases h : BitVec.ofNat 32 j.val = w (ix2 0 r)
  · rw [if_pos h, IntOp.cmpi_eq.mpr h, sitofp_bit_one]
  · rw [if_neg h, eq_zero_of_ne_one (fun hc => h (IntOp.cmpi_eq.mp hc)), sitofp_bit_zero]

/-- The four places the body builds the one-hot matrix, from the label row as loaded or already recast. -/
private theorem pay6_apply (Lw : Vec Ideal S1x512 .i32) (j : Fin 1024) (r : Fin 512) :
    k0_pay6 (F := Ideal) Lw (ix2 j r) = ohw j (Lw (ix2 0 r)) := by
  refine (hotV_apply (shapeCast S1x512 Lw shapeCasts_S1x512_S1x512) j r).trans ?_
  rw [shapeCast_self]
private theorem pay9_apply (Lw : Vec Ideal S1x512 .i32) (j : Fin 1024) (r : Fin 512) :
    k0_pay9 (F := Ideal) Lw (ix2 j r) = ohw j (Lw (ix2 0 r)) := by
  refine (hotV_apply (shapeCast S1x512 Lw shapeCasts_S1x512_S1x512) j r).trans ?_
  rw [shapeCast_self]
private theorem pay14_apply (Lw : Vec Ideal S1x512 .i32) (j : Fin 1024) (r : Fin 512) :
    k0_pay14 (F := Ideal) (k0_pay12 (F := Ideal) Lw) (ix2 j r) = ohw j (Lw (ix2 0 r)) := by
  refine (hotV_apply (shapeCast S1x512 Lw shapeCasts_S1x512_S1x512) j r).trans ?_
  rw [shapeCast_self]
private theorem pay1_apply (Lw : Vec Ideal S1x512 .i32) (j : Fin 1024) (r : Fin 512) :
    k0_pay1 (F := Ideal) (k0_pay17 (F := Ideal) Lw) (ix2 j r) = ohw j (Lw (ix2 0 r)) := by
  refine (hotV_apply (shapeCast S1x512 Lw shapeCasts_S1x512_S1x512) j r).trans ?_
  rw [shapeCast_self]

/-! ## The two products at an index -/

/-- The feature product's left operand is read at (output row, contraction coordinate) … -/
private theorem lhs_f_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide),
    dif_pos (show (0 : Fin S1024x512.rank) ∈ dot_S1024x512_S512x512_S1024x512_1_0_0_1_n_n.lhsNonContracting by decide)]
  rfl
private theorem lhs_f_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
/-- … and its right operand at (contraction coordinate, output column). -/
private theorem rhs_f_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
private theorem rhs_f_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide),
    dif_pos (show (1 : Fin S512x512.rank) ∈ dot_S1024x512_S512x512_S1024x512_1_0_0_1_n_n.rhsNonContracting by decide)]
  rfl

/-- The feature product into a zero accumulator, at `(j, k)`: the sum over the 512 rows `r` of `H (j, r) * R (r, k)`. -/
private theorem mm_f_apply (H : FVec Ideal S1024x512 .bf16) (R : FVec Ideal S512x512 .bf16) (j : Fin 1024) (k : Fin 512) :
    matmul dot_S1024x512_S512x512_S1024x512_1_0_0_1_n_n none H R (constant (F := Ideal) S1024x512 .f32 0x00000000#32) (ix2 j k)
      = ∑ r : Fin 512, H (ix2 j r) * R (ix2 r k) := by
  simp only [matmul]
  rw [Ideal.matmul_constant_zero_apply, ← Equiv.sum_comp (contrEquiv1 dot_S1024x512_S512x512_S1024x512_1_0_0_1_n_n 512 rfl rfl).symm]
  refine Finset.sum_congr rfl fun r _ => ?_
  have hk := contrEquiv1_symm_val dot_S1024x512_S512x512_S1024x512_1_0_0_1_n_n 512 rfl rfl r
  have el : dot_S1024x512_S512x512_S1024x512_1_0_0_1_n_n.lhsIdx (ix2 j k) ((contrEquiv1 dot_S1024x512_S512x512_S1024x512_1_0_0_1_n_n 512 rfl rfl).symm r) = ix2 j r :=
    funext fun a => Fin.ext (by
      match a with
      | ⟨0, _⟩ => exact lhs_f_0 _ _
      | ⟨1, _⟩ => exact (lhs_f_1 _ _).trans hk)
  have er : dot_S1024x512_S512x512_S1024x512_1_0_0_1_n_n.rhsIdx (ix2 j k) ((contrEquiv1 dot_S1024x512_S512x512_S1024x512_1_0_0_1_n_n 512 rfl rfl).symm r) = ix2 r k :=
    funext fun a => Fin.ext (by
      match a with
      | ⟨0, _⟩ => exact (rhs_f_0 _ _).trans hk
      | ⟨1, _⟩ => exact rhs_f_1 _ _)
  rw [el, er]

/-- The extra-column product's left operand is read at (output row, contraction coordinate) … -/
private theorem lhs_a_0 (i : S1024x128.Idx) (q : dot_S1024x512_S512x128_S1024x128_1_0_0_1_n_n.contr.Idx) :
    (dot_S1024x512_S512x128_S1024x128_1_0_0_1_n_n.lhsIdx i q 0).val = (i 0).val := by
  unfold DotDims.lhsIdx
  rw [dif_neg (show ¬(0 : Fin S1024x512.rank) ∈ dot_S1024x512_S512x128_S1024x128_1_0_0_1_n_n.lhsBatch by decide),
    dif_pos (show (0 : Fin S1024x512.rank) ∈ dot_S1024x512_S512x128_S1024x128_1_0_0_1_n_n.lhsNonContracting by decide)]
  rfl
private theorem lhs_a_1 (i : S1024x128.Idx) (q : dot_S1024x512_S512x128_S1024x128_1_0_0_1_n_n.contr.Idx) :
    (dot_S1024x512_S512x128_S1024x128_1_0_0_1_n_n.lhsIdx i q 1).val = (q ⟨0, by decide⟩).val :=
  dot_S1024x512_S512x128_S1024x128_1_0_0_1_n_n.lhsIdx_val_of_single rfl i q
/-- … and its right operand at (contraction coordinate, output column). -/
private theorem rhs_a_0 (i : S1024x128.Idx) (q : dot_S1024x512_S512x128_S1024x128_1_0_0_1_n_n.contr.Idx) :
    (dot_S1024x512_S512x128_S1024x128_1_0_0_1_n_n.rhsIdx i q 0).val = (q ⟨0, by decide⟩).val :=
  dot_S1024x512_S512x128_S1024x128_1_0_0_1_n_n.rhsIdx_val_of_single rfl i q
private theorem rhs_a_1 (i : S1024x128.Idx) (q : dot_S1024x512_S512x128_S1024x128_1_0_0_1_n_n.contr.Idx) :
    (dot_S1024x512_S512x128_S1024x128_1_0_0_1_n_n.rhsIdx i q 1).val = (i 1).val := by
  unfold DotDims.rhsIdx
  rw [dif_neg (show ¬(1 : Fin S512x128.rank) ∈ dot_S1024x512_S512x128_S1024x128_1_0_0_1_n_n.rhsBatch by decide),
    dif_pos (show (1 : Fin S512x128.rank) ∈ dot_S1024x512_S512x128_S1024x128_1_0_0_1_n_n.rhsNonContracting by decide)]
  rfl

/-- The extra-column product into a zero accumulator, at `(j, k)`: the sum over the 512 rows `r` of `H (j, r) * R (r, k)`. -/
private theorem mm_a_apply (H : FVec Ideal S1024x512 .bf16) (R : FVec Ideal S512x128 .bf16) (j : Fin 1024) (k : Fin 128) :
    matmul dot_S1024x512_S512x128_S1024x128_1_0_0_1_n_n none H R (constant (F := Ideal) S1024x128 .f32 0x00000000#32) (ix2 j k)
      = ∑ r : Fin 512, H (ix2 j r) * R (ix2 r k) := by
  simp only [matmul]
  rw [Ideal.matmul_constant_zero_apply, ← Equiv.sum_comp (contrEquiv1 dot_S1024x512_S512x128_S1024x128_1_0_0_1_n_n 512 rfl rfl).symm]
  refine Finset.sum_congr rfl fun r _ => ?_
  have hk := contrEquiv1_symm_val dot_S1024x512_S512x128_S1024x128_1_0_0_1_n_n 512 rfl rfl r
  have el : dot_S1024x512_S512x128_S1024x128_1_0_0_1_n_n.lhsIdx (ix2 j k) ((contrEquiv1 dot_S1024x512_S512x128_S1024x128_1_0_0_1_n_n 512 rfl rfl).symm r) = ix2 j r :=
    funext fun a => Fin.ext (by
      match a with
      | ⟨0, _⟩ => exact lhs_a_0 _ _
      | ⟨1, _⟩ => exact (lhs_a_1 _ _).trans hk)
  have er : dot_S1024x512_S512x128_S1024x128_1_0_0_1_n_n.rhsIdx (ix2 j k) ((contrEquiv1 dot_S1024x512_S512x128_S1024x128_1_0_0_1_n_n 512 rfl rfl).symm r) = ix2 r k :=
    funext fun a => Fin.ext (by
      match a with
      | ⟨0, _⟩ => exact (rhs_a_0 _ _).trans hk
      | ⟨1, _⟩ => exact rhs_a_1 _ _)
  rw [el, er]

/-! ## The rows' extra columns -/

/-- The rows' squared norms as a column: the squares summed along each row, the sums stood up as a column. -/
private def sqCol (X : FVec Ideal S512x512 .f32) : FVec Ideal S512x1 .f32 :=
  shapeCast S512x1 (multiReduction .add [1] S512 (mulf X X) 0x00000000#32 reduces_S512x512_S512 (.inl rfl) rfl)
    shapeCasts_S512_S512x1

/-- The row sum of the squares at row `r`. -/
private theorem sqRed_apply (X : FVec Ideal S512x512 .f32) (hφ : FKind.Formats .f32)
    (hacc : (0x00000000#32 : BitVec 32) = 0x00000000#32) (r : Fin 512) :
    multiReduction .add [1] S512 (mulf X X) 0x00000000#32 reduces_S512x512_S512 hφ hacc (ix1 r)
      = ∑ k : Fin 512, X (ix2 r k) * X (ix2 r k) := by
  refine (Ideal.multiReduction_add_single (mulf X X) 0x00000000#32 reduces_S512x512_S512 hφ hacc (ix1 r)).trans ?_
  show ∑ k : Fin 512, mulf X X (reduces_S512x512_S512.lift (ix1 r) k) = _
  refine Finset.sum_congr rfl fun k _ => ?_
  have e : reduces_S512x512_S512.lift (ix1 r) k = ix2 r k :=
    funext fun a => Fin.ext (by match a with | ⟨0, _⟩ => rfl | ⟨1, _⟩ => rfl)
  rw [e, mulf_apply]

/-- The column's entry at row `r` is the row's squared norm. -/
private theorem sqCol_apply (X : FVec Ideal S512x512 .f32) (r : Fin 512) :
    sqCol X (ix2 r 0) = ∑ k : Fin 512, X (ix2 r k) * X (ix2 r k) := by
  unfold sqCol
  refine (shapeCast_apply _ _ (ix2 r 0) (ix1 r) ?_).trans (sqRed_apply X _ _ r)
  rw [Shape.rowMajor_val_one, Shape.rowMajor_val_two]
  show r.val = r.val * 1 + 0
  omega

/-- The rows' extra columns, as the body lays them side by side: at row `r` and extra column `a` the augmented
    row's entry `512 + a`, once the first column is known to hold the squared norms and the two splats to be one and zero. -/
private theorem auxV_apply (X : FVec Ideal S512x512 .f32) (sq : FVec Ideal S512x1 .f32)
    (hsq : ∀ r : Fin 512, sq (ix2 r 0) = ∑ k : Fin 512, X (ix2 r k) * X (ix2 r k))
    (one zero : Ideal .bf16) (h1 : one = (1 : EReal)) (h0 : zero = (0 : EReal)) (r : Fin 512) (a : Fin 128) :
    concatenate S512x128 1 [⟨S512x1, truncf .bf16 sq bitsLt_bf16_f32⟩, ⟨S512x1, truncf .bf16 (subf sq sq) bitsLt_bf16_f32⟩,
        ⟨S512x1, broadcast S512x1 one⟩, ⟨S512x125, broadcast S512x125 zero⟩]
        concatenates_S512x1_S512x1_S512x1_S512x125_S512x128_d1 (ix2 r a)
      = augRow (fun k => X (ix2 r k)) ⟨512 + a.val, by omega⟩ := by
  unfold augRow
  rw [dif_neg (show ¬ (512 + a.val < 512) by omega)]
  by_cases a0 : a.val = 0
  · rw [if_pos (show 512 + a.val = 512 by omega)]
    refine (concatenate_apply_piece (1 : Fin S512x128.rank) _ _ (ix2 r a) 0 (by show 0 < 4; omega) S512x1 _ rfl rfl 0 rfl
      (ix2 r 0) (fun b hb => ?_) ?_).trans ?_
    · match b with
      | ⟨0, _⟩ => rfl
      | ⟨1, _⟩ => exact absurd rfl hb
    · show 0 + 0 = a.val
      omega
    · rw [truncf_apply, hsq]
  · rw [if_neg (show ¬ (512 + a.val = 512) by omega)]
    by_cases a1 : a.val = 1
    · rw [if_pos (show 512 + a.val = 513 by omega)]
      refine (concatenate_apply_piece (1 : Fin S512x128.rank) _ _ (ix2 r a) 1 (by show 1 < 4; omega) S512x1 _ rfl rfl 1 rfl
        (ix2 r 0) (fun b hb => ?_) ?_).trans ?_
      · match b with
        | ⟨0, _⟩ => rfl
        | ⟨1, _⟩ => exact absurd rfl hb
      · show 1 + 0 = a.val
        omega
      · rw [truncf_apply, subf_apply, hsq]
    · rw [if_neg (show ¬ (512 + a.val = 513) by omega)]
      by_cases a2 : a.val = 2
      · rw [if_pos (show 512 + a.val = 514 by omega)]
        refine (concatenate_apply_piece (1 : Fin S512x128.rank) _ _ (ix2 r a) 2 (by show 2 < 4; omega) S512x1 _ rfl rfl 2 rfl
          (ix2 r 0) (fun b hb => ?_) ?_).trans ?_
        · match b with
          | ⟨0, _⟩ => rfl
          | ⟨1, _⟩ => exact absurd rfl hb
        · show 2 + 0 = a.val
          omega
        · rw [broadcast_apply, h1]
      · rw [if_neg (show ¬ (512 + a.val = 514) by omega)]
        have ha3 : a.val - 3 < 125 := by have := a.isLt; omega
        refine (concatenate_apply_piece (1 : Fin S512x128.rank) _ _ (ix2 r a) 3 (by show 3 < 4; omega) S512x125 _ rfl rfl 3 rfl
          (ix2 r (⟨a.val - 3, ha3⟩ : Fin 125)) (fun b hb => ?_) ?_).trans ?_
        · match b with
          | ⟨0, _⟩ => rfl
          | ⟨1, _⟩ => exact absurd rfl hb
        · show 3 + (a.val - 3) = a.val
          omega
        · rw [broadcast_apply, h0]

/-! ## A store's value from its parts -/

/-- A feature store: the accumulator plus the one-hot matrix times the rows, at `(j, k)`. -/
private theorem feat_apply (X : FVec Ideal S512x512 .f32) (Lw : IVec S1x512 32) (H : FVec Ideal S1024x512 .bf16)
    (hH : ∀ (j : Fin 1024) (r : Fin 512), H (ix2 j r) = ohw j (Lw (ix2 0 r)))
    (A : FVec Ideal S1024x512 .f32) (j : Fin 1024) (k : Fin 512) :
    shapeCast S1024x512 (addf A (matmul dot_S1024x512_S512x512_S1024x512_1_0_0_1_n_n none H (truncf .bf16 X bitsLt_bf16_f32)
        (constant (F := Ideal) S1024x512 .f32 0x00000000#32))) shapeCasts_S1024x512_S1024x512 (ix2 j k)
      = A (ix2 j k) + chunkC X Lw j ⟨k.val, by omega⟩ := by
  rw [shapeCast_self, addf_apply, mm_f_apply]
  unfold chunkC
  congr 1
  refine Finset.sum_congr rfl fun r _ => ?_
  rw [hH, truncf_apply]
  unfold augRow
  rw [dif_pos (show k.val < 512 from k.isLt)]

/-- An extra-column store: the accumulator plus the one-hot matrix times the rows' extra columns, at `(j, a)`. -/
private theorem aux_apply (X : FVec Ideal S512x512 .f32) (Lw : IVec S1x512 32) (H : FVec Ideal S1024x512 .bf16)
    (hH : ∀ (j : Fin 1024) (r : Fin 512), H (ix2 j r) = ohw j (Lw (ix2 0 r)))
    (sq : FVec Ideal S512x1 .f32) (hsq : ∀ r : Fin 512, sq (ix2 r 0) = ∑ k : Fin 512, X (ix2 r k) * X (ix2 r k))
    (one zero : Ideal .bf16) (h1 : one = (1 : EReal)) (h0 : zero = (0 : EReal))
    (A : FVec Ideal S1024x128 .f32) (j : Fin 1024) (a : Fin 128) :
    shapeCast S1024x128 (addf A (matmul dot_S1024x512_S512x128_S1024x128_1_0_0_1_n_n none H
        (concatenate S512x128 1 [⟨S512x1, truncf .bf16 sq bitsLt_bf16_f32⟩, ⟨S512x1, truncf .bf16 (subf sq sq) bitsLt_bf16_f32⟩,
          ⟨S512x1, broadcast S512x1 one⟩, ⟨S512x125, broadcast S512x125 zero⟩]
          concatenates_S512x1_S512x1_S512x1_S512x125_S512x128_d1)
        (constant (F := Ideal) S1024x128 .f32 0x00000000#32))) shapeCasts_S1024x128_S1024x128 (ix2 j a)
      = A (ix2 j a) + chunkC X Lw j ⟨512 + a.val, by omega⟩ := by
  rw [shapeCast_self, addf_apply, mm_a_apply]
  unfold chunkC
  congr 1
  refine Finset.sum_congr rfl fun r _ => ?_
  rw [hH, auxV_apply X sq hsq one zero h1 h0]

/-! ## The eight stores' values -/

theorem pay7_apply (X : Vec Ideal S512x512 .f32) (Lw : Vec Ideal S1x512 .i32) (A : Vec Ideal S1024x512 .f32) (j : Fin 1024) (k : Fin 512) :
    k0_pay7 (F := Ideal) X Lw A (ix2 j k) = A (ix2 j k) + chunkC X Lw j ⟨k.val, by omega⟩ := by
  exact feat_apply X Lw (k0_pay6 (F := Ideal) Lw) (pay6_apply Lw) A j k

theorem pay8_apply (X : Vec Ideal S512x512 .f32) (Lw : Vec Ideal S1x512 .i32) (A : Vec Ideal S1024x128 .f32) (j : Fin 1024) (a : Fin 128) :
    k0_pay8 (F := Ideal) X Lw A (ix2 j a) = A (ix2 j a) + chunkC X Lw j ⟨512 + a.val, by omega⟩ := by
  exact aux_apply X Lw (k0_pay6 (F := Ideal) Lw) (pay6_apply Lw) (sqCol X) (sqCol_apply X) _ _
    Cert.Consts.ofBits_bf16_one Cert.Consts.ofBits_bf16_zero A j a

theorem pay10_apply (X : Vec Ideal S512x512 .f32) (Lw : Vec Ideal S1x512 .i32) (A : Vec Ideal S1024x512 .f32) (j : Fin 1024) (k : Fin 512) :
    k0_pay10 (F := Ideal) X Lw A (ix2 j k) = A (ix2 j k) + chunkC X Lw j ⟨k.val, by omega⟩ := by
  exact feat_apply X Lw (k0_pay9 (F := Ideal) Lw) (pay9_apply Lw) A j k

theorem pay11_apply (X : Vec Ideal S512x512 .f32) (Lw : Vec Ideal S1x512 .i32) (A : Vec Ideal S1024x128 .f32) (j : Fin 1024) (a : Fin 128) :
    k0_pay11 (F := Ideal) X Lw A (ix2 j a) = A (ix2 j a) + chunkC X Lw j ⟨512 + a.val, by omega⟩ := by
  exact aux_apply X Lw (k0_pay9 (F := Ideal) Lw) (pay9_apply Lw) (sqCol X) (sqCol_apply X) _ _
    Cert.Consts.ofBits_bf16_one Cert.Consts.ofBits_bf16_zero A j a

theorem pay15_apply (X : Vec Ideal S512x512 .f32) (Lw : Vec Ideal S1x512 .i32) (A : Vec Ideal S1024x512 .f32) (j : Fin 1024) (k : Fin 512) :
    k0_pay15 (F := Ideal) X (k0_pay12 (F := Ideal) Lw) A (ix2 j k) = A (ix2 j k) + chunkC X Lw j ⟨k.val, by omega⟩ := by
  exact feat_apply X Lw (k0_pay14 (F := Ideal) (k0_pay12 (F := Ideal) Lw)) (pay14_apply Lw) A j k

theorem pay16_apply (X : Vec Ideal S512x512 .f32) (Lw : Vec Ideal S1x512 .i32) (A : Vec Ideal S1024x128 .f32) (j : Fin 1024) (a : Fin 128) :
    k0_pay16 (F := Ideal) (k0_pay12 (F := Ideal) Lw) (k0_pay13 (F := Ideal) X) A (ix2 j a) = A (ix2 j a) + chunkC X Lw j ⟨512 + a.val, by omega⟩ := by
  exact aux_apply X Lw (k0_pay14 (F := Ideal) (k0_pay12 (F := Ideal) Lw)) (pay14_apply Lw) (sqCol X) (sqCol_apply X) _ _
    Cert.Consts.ofBits_bf16_one Cert.Consts.ofBits_bf16_zero A j a

theorem pay2_apply (X : Vec Ideal S512x512 .f32) (Lw : Vec Ideal S1x512 .i32) (A : Vec Ideal S1024x512 .f32) (j : Fin 1024) (k : Fin 512) :
    k0_pay2 (F := Ideal) (k0_pay17 (F := Ideal) Lw) (k0_pay21 (F := Ideal) X) A (ix2 j k) = A (ix2 j k) + chunkC X Lw j ⟨k.val, by omega⟩ := by
  exact feat_apply X Lw (k0_pay1 (F := Ideal) (k0_pay17 (F := Ideal) Lw)) (pay1_apply Lw) A j k

theorem pay3_apply (X : Vec Ideal S512x512 .f32) (Lw : Vec Ideal S1x512 .i32) (A : Vec Ideal S1024x128 .f32) (j : Fin 1024) (a : Fin 128) :
    k0_pay3 (F := Ideal) (k0_pay17 (F := Ideal) Lw) (k0_pay19 (F := Ideal) X) (k0_pay20 (F := Ideal) X) (k0_pay22 (F := Ideal))
      (FloatOps.ofBits (F := Ideal) FTy.bf16 0#16) A (ix2 j a) = A (ix2 j a) + chunkC X Lw j ⟨512 + a.val, by omega⟩ := by
  exact aux_apply X Lw (k0_pay1 (F := Ideal) (k0_pay17 (F := Ideal) Lw)) (pay1_apply Lw) (sqCol X) (sqCol_apply X) _ _
    Cert.Consts.ofBits_bf16_one Cert.Consts.ofBits_bf16_zero A j a

end Cert.CenterLoss.Body

end
-- ==== Proof.BodyPieces.lean ====
/-
  What one grid point's body leaves in the accumulator, case by case.

  A grid point's block holds 2048 rows; the body takes them in four chunks of 512, each chunk adding its
  contribution (BodyPay's `chunkC`) to the accumulator's two column ranges.  `blockChunk x0 x1 q` is chunk `q`'s
  contribution written over the block's own rows and label words, and `addChunks z` the four added, in the body's
  order, to a starting value `z`: zero at a pass's first point (where the body clears the accumulator first), what
  the point before left otherwise.  At a pass's last point the body also copies the accumulator to the output
  block.
-/
import proofs.«404159_j25305947308120_3_alg».proof.Proof.Gen.KernelIdeal.Frame
import proofs.«404159_j25305947308120_3_alg».proof.Proof.BodyPay
import Idealize.ShloMosaic.Lib.WholeRead

set_option maxRecDepth 16384

noncomputable section

open scoped BigOperators

namespace Cert.CenterLoss.Body

open Idealize.ShloMosaic Idealize.ShloMosaic.TcCoe Idealize.ShloMosaic.Tactic Idealize.ShloMosaic.ValueIdx
open Idealize.SL Idealize.SL.Sem
open Cert.KernelIdeal Cert.KernelIdeal.Gen

/-- Chunk `q` (rows `512 q … 512 q + 511` of the point's block) contributes this to entry `(j, col)`. -/
def blockChunk (x0 : Vec Ideal S2048x512 .f32) (x1 : Vec Ideal S1x2048 .i32) (q : Fin 4) (j : Fin 1024) (col : Fin 640) : EReal :=
  ∑ r : Fin 512, ohw j (x1 (ix2 0 ⟨q.val * 512 + r.val, by omega⟩))
    * augRow (fun k => x0 (ix2 ⟨q.val * 512 + r.val, by omega⟩ k)) col

/-- The four chunks added, in the body's order, to a starting value. -/
def addChunks (z : EReal) (x0 : Vec Ideal S2048x512 .f32) (x1 : Vec Ideal S1x2048 .i32) (j : Fin 1024) (col : Fin 640) : EReal :=
  (((z + blockChunk x0 x1 0 j col) + blockChunk x0 x1 1 j col) + blockChunk x0 x1 2 j col) + blockChunk x0 x1 3 j col

/-! ## The accumulator's two column ranges -/

/-- The two column ranges of the accumulator are disjoint. -/
theorem disjFA (h h') : Disjoint (Rect.unit (s := S1024x640) ![0, 0] ![1024, 512] h).set (Rect.unit (s := S1024x640) ![0, 512] ![1024, 128] h').set :=
  Rect.unit_disjoint (1 : Fin 2) (Or.inl (by simp))

/-- A load of the last 128 columns passes over a store into the first 512, -/
theorem readCov_skipF {sig' : RefSig} {κ : Kind} {sp : Space} (v : View sig' κ sp S1024x640 .f32) (h h')
    (w : (Rect.unit (s := S1024x640) ![0, 0] ![1024, 512] h).shape.Idx → Elt Ideal .f32) (L : List (View.Piece (Elt Ideal) S1024x640 .f32)) :
    v.readCov (⟨Rect.unit ![0, 0] ![1024, 512] h, w⟩ :: L) (Rect.unit (s := S1024x640) ![0, 512] ![1024, 128] h').toLoadRect
      = v.readCov L (Rect.unit (s := S1024x640) ![0, 512] ![1024, 128] h').toLoadRect :=
  View.readCov_cons_of_disjoint v _ L _ (disjFA h h')

/-- and a load of the first 512 columns over a store into the last 128. -/
theorem readCov_skipA {sig' : RefSig} {κ : Kind} {sp : Space} (v : View sig' κ sp S1024x640 .f32) (h h')
    (w : (Rect.unit (s := S1024x640) ![0, 512] ![1024, 128] h').shape.Idx → Elt Ideal .f32) (L : List (View.Piece (Elt Ideal) S1024x640 .f32)) :
    v.readCov (⟨Rect.unit ![0, 512] ![1024, 128] h', w⟩ :: L) (Rect.unit (s := S1024x640) ![0, 0] ![1024, 512] h).toLoadRect
      = v.readCov L (Rect.unit (s := S1024x640) ![0, 0] ![1024, 512] h).toLoadRect :=
  View.readCov_cons_of_disjoint v _ L _ (disjFA h h').symm

/-- Entry `(j, 512 + a)` is entry `(j, a)` of the last 128 columns, -/
theorem embA (h') (j : Fin 1024) (a : Fin 128) :
    (ix2 j ⟨512 + a.val, by omega⟩ : S1024x640.Idx) = (Rect.unit (s := S1024x640) ![0, 512] ![1024, 128] h').emb (ix2 j a) := by
  funext d
  match d with
  | ⟨0, _⟩ => exact Fin.ext (show j.val = 0 + 1 * j.val by omega)
  | ⟨1, _⟩ => exact Fin.ext (show 512 + a.val = 512 + 1 * a.val by omega)

/-- and entry `(j, k)` with `k < 512` is entry `(j, k)` of the first 512. -/
theorem embF (h) (j : Fin 1024) (k : Fin 512) :
    (ix2 j ⟨k.val, by omega⟩ : S1024x640.Idx) = (Rect.unit (s := S1024x640) ![0, 0] ![1024, 512] h).emb (ix2 j k) := by
  funext d
  match d with
  | ⟨0, _⟩ => exact Fin.ext (show j.val = 0 + 1 * j.val by omega)
  | ⟨1, _⟩ => exact Fin.ext (show k.val = 0 + 1 * k.val by omega)

/-- An entry of the first 512 columns is not in the last 128. -/
theorem not_memA (h') (j : Fin 1024) (k : Fin 512) :
    (ix2 j ⟨k.val, by omega⟩ : S1024x640.Idx) ∉ (Rect.unit (s := S1024x640) ![0, 512] ![1024, 128] h').set := by
  rw [Rect.mem_set_unit]
  intro hm
  have := (hm 1).1
  exact absurd (show 512 ≤ k.val from this) (by omega)

/-- A load of the last 128 columns of the untouched accumulator, -/
theorem readAt_A (arg5 : Memref sig .tc .vmem S1024x640 .f32) (harg5 : arg5.IsWhole) (xs0 : Vec Ideal S1024x640 .f32) (h')
    (j : Fin 1024) (a : Fin 128) :
    View.readAt (Elt Ideal) arg5.view (Rect.unit (s := S1024x640) ![0, 512] ![1024, 128] h').toLoadRect (harg5.unread xs0) (ix2 j a)
      = xs0 (ix2 j ⟨512 + a.val, by omega⟩) := by
  rw [harg5.readAt_unread, embA h' j a]; rfl

/-- and of its first 512. -/
theorem readAt_F (arg5 : Memref sig .tc .vmem S1024x640 .f32) (harg5 : arg5.IsWhole) (xs0 : Vec Ideal S1024x640 .f32) (h)
    (j : Fin 1024) (k : Fin 512) :
    View.readAt (Elt Ideal) arg5.view (Rect.unit (s := S1024x640) ![0, 0] ![1024, 512] h).toLoadRect (harg5.unread xs0) (ix2 j k)
      = xs0 (ix2 j ⟨k.val, by omega⟩) := by
  rw [harg5.readAt_unread, embF h j k]; rfl

/-- A chunk's contribution over the rows and label words loaded for it is `blockChunk`. -/
theorem chunkC_readAt (arg2 : Memref sig .tc .vmem S2048x512 .f32) (harg2 : arg2.IsWhole) (arg3 : Memref sig .tc .vmem S1x2048 .i32) (harg3 : arg3.IsWhole)
    (x0 : Vec Ideal S2048x512 .f32) (x1 : Vec Ideal S1x2048 .i32) (q : Fin 4) (o : ℕ) (ho : o = q.val * 512) (h2) (h3) (j : Fin 1024) (col : Fin 640) :
    chunkC (View.readAt (Elt Ideal) arg2.view (Rect.unit (s := S2048x512) ![o, 0] S512x512.size h2).toLoadRect (harg2.unread x0))
        (View.readAt (Elt Ideal) arg3.view (Rect.unit (s := S1x2048) ![0, o] S1x512.size h3).toLoadRect (harg3.unread x1)) j col
      = blockChunk x0 x1 q j col := by
  subst ho
  unfold chunkC blockChunk
  refine Finset.sum_congr rfl fun r _ => ?_
  have e1 : View.readAt (Elt Ideal) arg3.view (Rect.unit (s := S1x2048) ![0, q.val * 512] S1x512.size h3).toLoadRect (harg3.unread x1) (ix2 0 r)
      = x1 (ix2 0 ⟨q.val * 512 + r.val, by omega⟩) := by
    rw [harg3.readAt_unread]
    congr 1
    funext d
    match d with
    | ⟨0, _⟩ => exact Fin.ext (show 0 + 1 * 0 = 0 by omega)
    | ⟨1, _⟩ => exact Fin.ext (show q.val * 512 + 1 * r.val = q.val * 512 + r.val by omega)
  have e2 : (fun k => View.readAt (Elt Ideal) arg2.view (Rect.unit (s := S2048x512) ![q.val * 512, 0] S512x512.size h2).toLoadRect (harg2.unread x0) (ix2 r k))
      = fun k => x0 (ix2 ⟨q.val * 512 + r.val, by omega⟩ k) := by
    funext k
    rw [harg2.readAt_unread]
    congr 1
    funext d
    match d with
    | ⟨0, _⟩ => exact Fin.ext (show q.val * 512 + 1 * r.val = q.val * 512 + r.val by omega)
    | ⟨1, _⟩ => exact Fin.ext (show 0 + 1 * k.val = k.val by omega)
  rw [e1, e2]

/-- A column is one of the first 512 or one of the last 128. -/
theorem col_cases (col : Fin 640) :
    (∃ k : Fin 512, col = ⟨k.val, by omega⟩) ∨ (∃ a : Fin 128, col = ⟨512 + a.val, by omega⟩) := by
  by_cases hcol : col.val < 512
  · exact Or.inl ⟨⟨col.val, hcol⟩, rfl⟩
  · exact Or.inr ⟨⟨col.val - 512, by omega⟩, Fin.ext (show col.val = 512 + (col.val - 512) by omega)⟩

/-- At an entry of the first 512 columns the contents pass over a last store into the last 128, -/
theorem canon_skipA (h') (w : (Rect.unit (s := S1024x640) ![0, 512] ![1024, 128] h').shape.Idx → Elt Ideal .f32)
    (L : List (View.Piece (Elt Ideal) S1024x640 .f32)) (j : Fin 1024) (k : Fin 512) :
    View.canon (⟨Rect.unit ![0, 512] ![1024, 128] h', w⟩ :: L) (ix2 j ⟨k.val, by omega⟩ : S1024x640.Idx)
      = View.canon L (ix2 j ⟨k.val, by omega⟩ : S1024x640.Idx) :=
  View.canon_cons_of_not_mem _ L (not_memA h' j k)

/-- are a last store into the first 512 there, -/
theorem canon_ownF (h) (w : (Rect.unit (s := S1024x640) ![0, 0] ![1024, 512] h).shape.Idx → Elt Ideal .f32)
    (L : List (View.Piece (Elt Ideal) S1024x640 .f32)) (j : Fin 1024) (k : Fin 512) :
    View.canon (⟨Rect.unit ![0, 0] ![1024, 512] h, w⟩ :: L) (ix2 j ⟨k.val, by omega⟩ : S1024x640.Idx) = w (ix2 j k) := by
  rw [embF h j k]; exact View.canon_cons_emb _ w L _

/-- and at an entry of the last 128 a last store into those. -/
theorem canon_ownA (h') (w : (Rect.unit (s := S1024x640) ![0, 512] ![1024, 128] h').shape.Idx → Elt Ideal .f32)
    (L : List (View.Piece (Elt Ideal) S1024x640 .f32)) (j : Fin 1024) (a : Fin 128) :
    View.canon (⟨Rect.unit ![0, 512] ![1024, 128] h', w⟩ :: L) (ix2 j ⟨512 + a.val, by omega⟩ : S1024x640.Idx) = w (ix2 j a) := by
  rw [embA h' j a]; exact View.canon_cons_emb _ w L _

/-- The clearing store's value is zero everywhere, -/
theorem pay5_apply (y : S1024x640.Idx) : k0_pay5 (F := Ideal) y = 0 := by
  unfold k0_pay5
  rw [shapeCast_self]
  exact Ideal.ofBits_zero_f32

/-- so any load of the accumulator just cleared reads zero. -/
theorem readCov_zero {sig' : RefSig} {κ : Kind} {sp : Space} (v : View sig' κ sp S1024x640 .f32) (h) (B : LoadRect S1024x640) (x : B.shape.Idx) :
    v.readCov [(⟨Rect.unit (s := S1024x640) ![0, 0] S1024x640.size h, k0_pay5 (F := Ideal)⟩ : View.Piece (Elt Ideal) S1024x640 .f32)] B x = 0 := by
  rw [View.readCov_eq_canon']
  show View.canon _ (B.idx x) = 0
  rw [View.canon_unit_zero (by funext a; fin_cases a <;> rfl)]
  exact pay5_apply _

/-- The whole accumulator's load, read at the output block's entry `(0, j, col)`, is at the accumulator's `(j, col)`. -/
theorem idx_whole (h) (j : Fin 1024) (col : Fin 640) :
    (Rect.unit (s := S1024x640) ![0, 0] ![1024, 640] h).toLoadRect.idx (fun a => (ix3 (0 : Fin 1) j col : S1x1024x640.Idx) a.succ)
      = (ix2 j col : S1024x640.Idx) := by
  funext d
  match d with
  | ⟨0, _⟩ => exact Fin.ext (show 0 + 1 * j.val = j.val by omega)
  | ⟨1, _⟩ => exact Fin.ext (show 0 + 1 * col.val = col.val by omega)

/-! ## The four cases -/

/-- A pass's first point: the accumulator is cleared, then the four chunks are added. -/
theorem sout0_A_0_apply (c : Dev nD) (i : grid0.Coords) (arg2 : Memref sig .tc .vmem S2048x512 .f32) (harg2 : arg2.IsWhole) (arg3 : Memref sig .tc .vmem S1x2048 .i32) (harg3 : arg3.IsWhole) (arg4 : Memref sig .tc .vmem S1x1024x640 .f32) (harg4 : arg4.IsWhole) (arg5 : Memref sig .tc .vmem S1024x640 .f32) (harg5 : arg5.IsWhole) (hc0 : cond0_0 i) (hc1 : ¬cond0_1 i)
    (x0 : Vec Ideal S2048x512 .f32) (x1 : Vec Ideal S1x2048 .i32) (j : Fin 1024) (col : Fin 640) :
    sout0_A_0 (F := Ideal) c i arg2 harg2 arg3 harg3 arg4 harg4 arg5 harg5 hc0 hc1 x0 x1 (ix2 j col) = addChunks 0 x0 x1 j col := by
  unfold sout0_A_0
  rw [View.read_writes_eq_canon _ _ _ (scover0_A_0 c i arg2 harg2 arg3 harg3 arg4 harg4 arg5 harg5 hc0 hc1 x0 x1)]
  unfold kernelRun0_A
  dsimp only
  sl_unfold_run_names
  unfold addChunks
  rcases col_cases col with ⟨k, rfl⟩ | ⟨a, rfl⟩
  · rw [canon_skipA]
    rw [canon_ownF]
    rw [pay2_apply]
    rw [readCov_skipA]
    rw [View.readCov_cons_toLoadRect]
    rw [pay15_apply]
    rw [readCov_skipA]
    rw [View.readCov_cons_toLoadRect]
    rw [pay10_apply]
    rw [readCov_skipA]
    rw [View.readCov_cons_toLoadRect]
    rw [pay7_apply]
    rw [readCov_zero]
    rw [chunkC_readAt arg2 harg2 arg3 harg3 x0 x1 0 0 rfl, chunkC_readAt arg2 harg2 arg3 harg3 x0 x1 1 512 rfl,
      chunkC_readAt arg2 harg2 arg3 harg3 x0 x1 2 1024 rfl, chunkC_readAt arg2 harg2 arg3 harg3 x0 x1 3 1536 rfl]
  · rw [canon_ownA]
    rw [pay3_apply]
    rw [readCov_skipF]
    rw [View.readCov_cons_toLoadRect]
    rw [pay16_apply]
    rw [readCov_skipF]
    rw [View.readCov_cons_toLoadRect]
    rw [pay11_apply]
    rw [readCov_skipF]
    rw [View.readCov_cons_toLoadRect]
    rw [pay8_apply]
    rw [readCov_skipF]
    rw [readCov_zero]
    rw [chunkC_readAt arg2 harg2 arg3 harg3 x0 x1 0 0 rfl, chunkC_readAt arg2 harg2 arg3 harg3 x0 x1 1 512 rfl,
      chunkC_readAt arg2 harg2 arg3 harg3 x0 x1 2 1024 rfl, chunkC_readAt arg2 harg2 arg3 harg3 x0 x1 3 1536 rfl]

/-- A middle point: the four chunks are added to what the point before left. -/
theorem sout0_B_0_apply (c : Dev nD) (i : grid0.Coords) (arg2 : Memref sig .tc .vmem S2048x512 .f32) (harg2 : arg2.IsWhole) (arg3 : Memref sig .tc .vmem S1x2048 .i32) (harg3 : arg3.IsWhole) (arg4 : Memref sig .tc .vmem S1x1024x640 .f32) (harg4 : arg4.IsWhole) (arg5 : Memref sig .tc .vmem S1024x640 .f32) (harg5 : arg5.IsWhole) (hc0 : ¬cond0_0 i) (hc1 : ¬cond0_1 i)
    (x0 : Vec Ideal S2048x512 .f32) (x1 : Vec Ideal S1x2048 .i32) (xs0 : Vec Ideal S1024x640 .f32) (j : Fin 1024) (col : Fin 640) :
    sout0_B_0 (F := Ideal) c i arg2 harg2 arg3 harg3 arg4 harg4 arg5 harg5 hc0 hc1 x0 x1 xs0 (ix2 j col)
      = addChunks (xs0 (ix2 j col)) x0 x1 j col := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_run_names
  unfold addChunks
  rcases col_cases col with ⟨k, rfl⟩ | ⟨a, rfl⟩
  · rw [canon_skipA]
    rw [canon_ownF]
    rw [pay2_apply]
    rw [readCov_skipA]
    rw [View.readCov_cons_toLoadRect]
    rw [pay15_apply]
    rw [readCov_skipA]
    rw [View.readCov_cons_toLoadRect]
    rw [pay10_apply]
    rw [readCov_skipA]
    rw [View.readCov_cons_toLoadRect]
    rw [pay7_apply]
    rw [readAt_F]
    rw [chunkC_readAt arg2 harg2 arg3 harg3 x0 x1 0 0 rfl, chunkC_readAt arg2 harg2 arg3 harg3 x0 x1 1 512 rfl,
      chunkC_readAt arg2 harg2 arg3 harg3 x0 x1 2 1024 rfl, chunkC_readAt arg2 harg2 arg3 harg3 x0 x1 3 1536 rfl]
  · rw [canon_ownA]
    rw [pay3_apply]
    rw [readCov_skipF]
    rw [View.readCov_cons_toLoadRect]
    rw [pay16_apply]
    rw [readCov_skipF]
    rw [View.readCov_cons_toLoadRect]
    rw [pay11_apply]
    rw [readCov_skipF]
    rw [View.readCov_cons_toLoadRect]
    rw [pay8_apply]
    rw [readAt_A]
    rw [chunkC_readAt arg2 harg2 arg3 harg3 x0 x1 0 0 rfl, chunkC_readAt arg2 harg2 arg3 harg3 x0 x1 1 512 rfl,
      chunkC_readAt arg2 harg2 arg3 harg3 x0 x1 2 1024 rfl, chunkC_readAt arg2 harg2 arg3 harg3 x0 x1 3 1536 rfl]

/-- A pass's last point: the same in the accumulator, -/
theorem sout0_C_0_apply (c : Dev nD) (i : grid0.Coords) (arg2 : Memref sig .tc .vmem S2048x512 .f32) (harg2 : arg2.IsWhole) (arg3 : Memref sig .tc .vmem S1x2048 .i32) (harg3 : arg3.IsWhole) (arg4 : Memref sig .tc .vmem S1x1024x640 .f32) (harg4 : arg4.IsWhole) (arg5 : Memref sig .tc .vmem S1024x640 .f32) (harg5 : arg5.IsWhole) (hc0 : ¬cond0_0 i) (hc1 : cond0_1 i)
    (x0 : Vec Ideal S2048x512 .f32) (x1 : Vec Ideal S1x2048 .i32) (xs0 : Vec Ideal S1024x640 .f32) (j : Fin 1024) (col : Fin 640) :
    sout0_C_0 (F := Ideal) c i arg2 harg2 arg3 harg3 arg4 harg4 arg5 harg5 hc0 hc1 x0 x1 xs0 (ix2 j col)
      = addChunks (xs0 (ix2 j col)) x0 x1 j col := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_run_names
  unfold addChunks
  rcases col_cases col with ⟨k, rfl⟩ | ⟨a, rfl⟩
  · rw [canon_skipA]
    rw [canon_ownF]
    rw [pay2_apply]
    rw [readCov_skipA]
    rw [View.readCov_cons_toLoadRect]
    rw [pay15_apply]
    rw [readCov_skipA]
    rw [View.readCov_cons_toLoadRect]
    rw [pay10_apply]
    rw [readCov_skipA]
    rw [View.readCov_cons_toLoadRect]
    rw [pay7_apply]
    rw [readAt_F]
    rw [chunkC_readAt arg2 harg2 arg3 harg3 x0 x1 0 0 rfl, chunkC_readAt arg2 harg2 arg3 harg3 x0 x1 1 512 rfl,
      chunkC_readAt arg2 harg2 arg3 harg3 x0 x1 2 1024 rfl, chunkC_readAt arg2 harg2 arg3 harg3 x0 x1 3 1536 rfl]
  · rw [canon_ownA]
    rw [pay3_apply]
    rw [readCov_skipF]
    rw [View.readCov_cons_toLoadRect]
    rw [pay16_apply]
    rw [readCov_skipF]
    rw [View.readCov_cons_toLoadRect]
    rw [pay11_apply]
    rw [readCov_skipF]
    rw [View.readCov_cons_toLoadRect]
    rw [pay8_apply]
    rw [readAt_A]
    rw [chunkC_readAt arg2 harg2 arg3 harg3 x0 x1 0 0 rfl, chunkC_readAt arg2 harg2 arg3 harg3 x0 x1 1 512 rfl,
      chunkC_readAt arg2 harg2 arg3 harg3 x0 x1 2 1024 rfl, chunkC_readAt arg2 harg2 arg3 harg3 x0 x1 3 1536 rfl]

/-- and the output block is the accumulator's copy. -/
theorem out0_C_2_apply (c : Dev nD) (i : grid0.Coords) (arg2 : Memref sig .tc .vmem S2048x512 .f32) (harg2 : arg2.IsWhole) (arg3 : Memref sig .tc .vmem S1x2048 .i32) (harg3 : arg3.IsWhole) (arg4 : Memref sig .tc .vmem S1x1024x640 .f32) (harg4 : arg4.IsWhole) (arg5 : Memref sig .tc .vmem S1024x640 .f32) (harg5 : arg5.IsWhole) (hc0 : ¬cond0_0 i) (hc1 : cond0_1 i)
    (x0 : Vec Ideal S2048x512 .f32) (x1 : Vec Ideal S1x2048 .i32) (xs0 : Vec Ideal S1024x640 .f32) (j : Fin 1024) (col : Fin 640) :
    out0_C_2 (F := Ideal) c i arg2 harg2 arg3 harg3 arg4 harg4 arg5 harg5 hc0 hc1 x0 x1 xs0 (ix3 0 j col)
      = addChunks (xs0 (ix2 j col)) x0 x1 j col := by
  have hacc := sout0_C_0_apply c i arg2 harg2 arg3 harg3 arg4 harg4 arg5 harg5 hc0 hc1 x0 x1 xs0 j col
  unfold sout0_C_0 at hacc
  rw [View.read_writes_eq_canon _ _ _ (scover0_C_0 c i arg2 harg2 arg3 harg3 arg4 harg4 arg5 harg5 hc0 hc1 x0 x1 xs0)] at hacc
  unfold kernelRun0_C at hacc
  dsimp only at hacc
  unfold out0_C_2
  rw [View.read_writes_eq_canon _ _ _ (cover0_C_2 c i arg2 harg2 arg3 harg3 arg4 harg4 arg5 harg5 hc0 hc1 x0 x1 xs0)]
  unfold kernelRun0_C
  dsimp only
  rw [View.canon_unit_zero (by funext a; fin_cases a <;> rfl)]
  unfold k0_pay4
  rw [shapeCast_addUnit_apply]
  unfold kernelRun0_C.sl.v134
  rw [View.readCov_eq_canon']
  unfold kernelRun0_C.sl.HS0_8
  exact Eq.trans (congrArg _ (idx_whole _ j col)) hacc

end Cert.CenterLoss.Body

end
-- ==== Proof.Region.lean ====
/-
  The kernel's pallas_call region: what its output array holds after the run.

  The grid has 32 points, two passes of 16.  Point `n` reads rows `2048 n … 2048 n + 2047` of the features and the same
  range of the labels; within a pass the accumulator is cleared at the first point and receives every point's
  2048 rows, 512 at a time; at the pass's last point it is copied to the output block of the pass.  So after point
  `n` the accumulator holds the contributions of the rows from the pass's first row up to row `2048 (n + 1)`
  (`acc_after`), and the output array ends holding, for pass `p`, the contributions of rows
  `32768 p … 32768 (p + 1) − 1` (`raw_value`).
-/
import proofs.«404159_j25305947308120_3_alg».proof.Proof.Gen.KernelIdeal.Frame
import proofs.«404159_j25305947308120_3_alg».proof.Proof.BodyPieces
import proofs.«404159_j25305947308120_3_alg».proof.Proof.SpecAcc
import Idealize.ShloMosaic.Lib.Pipeline.Value
import Idealize.ShloMosaic.Lib.StableHlo.Run
import Idealize.ShloMosaic.Lib.Tactic

set_option maxRecDepth 16384

noncomputable section

open scoped BigOperators

namespace Cert.CenterLoss.Region

open Idealize.ShloMosaic Idealize.ShloMosaic.TcCoe Idealize.ShloMosaic.ValueIdx Idealize.SL.Sem
open Idealize.ShloMosaic.Pipeline (Dat)
open Cert.KernelIdeal Cert.KernelIdeal.Gen Cert.CenterLoss Cert.CenterLoss.Body

variable (m : (ℓ : Loc nD τ sig) → Buf (Elt Ideal) ℓ)

/-! ## The windows' index maps, decided once over the grid -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = t.val :=
  (by decide +kernel : ∀ t : Fin grid0.N, win0_1.index t 0 = 0 ∧ win0_1.index t 1 = t.val)
theorem idx2 : ∀ t : Fin cfg0.N, win0_2.index t 0 = t.val / 16 ∧ win0_2.index t 1 = 0 ∧ win0_2.index t 2 = 0 :=
  (by decide +kernel : ∀ t : Fin grid0.N, win0_2.index t 0 = t.val / 16 ∧ win0_2.index t 1 = 0 ∧ win0_2.index t 2 = 0)

/-- Point `t`'s feature block, as a vector of its literal shape. -/
abbrev xblk (c : Dev nD) (t : Fin cfg0.N) : Vec Ideal S2048x512 .f32 := iblk m c 0 t
/-- Point `t`'s label block. -/
abbrev lblk (c : Dev nD) (t : Fin cfg0.N) : Vec Ideal S1x2048 .i32 := iblk m c 1 t

/-- Row `a` of point `t`'s feature block is row `2048 t + a` of the features. -/
theorem xblk_apply (c : Dev nD) (t : Fin cfg0.N) (a : Fin 2048) (k : Fin 512) (h : t.val * 2048 + a.val < 65536) :
    xblk m c t (ix2 a k) = m ((c : Thread nD τ).loc main_arg0) (ix2 ⟨t.val * 2048 + a.val, h⟩ k) := by
  unfold xblk iblk
  rw [View.read_apply]
  show V m c main_arg0 _ = m (c.tc.loc main_arg0) _
  rw [V_main_arg0]
  congr 1
  funext d
  apply Fin.ext
  match d with
  | ⟨0, _⟩ => show win0_0.index t 0 * 2048 + 1 * a.val = t.val * 2048 + a.val; rw [(idx0 t).1]; omega
  | ⟨1, _⟩ => show win0_0.index t 1 * 512 + 1 * k.val = k.val; rw [(idx0 t).2]; omega

/-- The label row the region reads is the label vector laid out as one row. -/
theorem V_main_v0 (c : Dev nD) :
    (V m c main_v0 : S1x65536.Idx → BitVec 32) = shapeCast S1x65536 (m ((c : Thread nD τ).loc main_arg2)) shapeCasts_S65536_S1x65536 := by
  dsimp only [V, V0]
  simp only [hostOps0, List.flatten_cons, List.flatten_nil, List.append_nil]
  after_results
  rfl

/-- Entry `b` of point `t`'s label block is label `2048 t + b`. -/
theorem lblk_apply (c : Dev nD) (t : Fin cfg0.N) (b : Fin 2048) (h : t.val * 2048 + b.val < 65536) :
    lblk m c t (ix2 0 b) = m ((c : Thread nD τ).loc main_arg2) (ix1 ⟨t.val * 2048 + b.val, h⟩) := by
  unfold lblk iblk
  rw [View.read_apply]
  show V m c main_v0 _ = _
  rw [V_main_v0]
  refine shapeCast_apply _ _ _ (ix1 ⟨t.val * 2048 + b.val, h⟩) ?_
  rw [Shape.rowMajor_val_one, Shape.rowMajor_val_two]
  show t.val * 2048 + b.val = (win0_1.index t 0 * 1 + 1 * (0 : Fin 1).val) * 65536 + (win0_1.index t 1 * 2048 + 1 * b.val)
  rw [(idx1 t).1, (idx1 t).2]
  simp

/-! ## A grid point's contribution -/

/-- The features by (row, column) and the labels as classes. -/
abbrev fA (c : Dev nD) : Fin 65536 → Fin 512 → EReal := fOf (m ((c : Thread nD τ).loc main_arg0))
abbrev labA (c : Dev nD) : Fin 65536 → Fin 1000 := labOf (m ((c : Thread nD τ).loc main_arg2))

/-- For a label word below 1000 the kernel's one-hot entry (class number against the word) is the specification's. -/
theorem ohw_eq_hot (L : (⟨1, ![65536]⟩ : Shape).Idx → BitVec 32) (j : Fin 1024) (i : Fin 65536) (h : (L (ix1 i)).toNat < 1000) :
    ohw j (L (ix1 i)) = hot (labOf L) j i := by
  unfold ohw hot
  rw [labOf_val L i h]
  have hj : j.val < 2 ^ 32 := lt_of_lt_of_le j.isLt (by norm_num)
  by_cases e : BitVec.ofNat 32 j.val = L (ix1 i)
  · rw [if_pos e, if_pos]
    rw [← e, BitVec.toNat_ofNat, Nat.mod_eq_of_lt hj]
  · rw [if_neg e, if_neg]
    intro e'
    apply e
    apply BitVec.eq_of_toNat_eq
    rw [BitVec.toNat_ofNat, Nat.mod_eq_of_lt hj, e']

/-- The specification's augmented row is the body's. -/
theorem aug_eq_augRow (f : Fin 65536 → Fin 512 → EReal) (i : Fin 65536) (col : Fin 640) : aug f i col = augRow (f i) col := rfl

variable (hL : ∀ c : Dev nD, ∀ i, (m ((c : Thread nD τ).loc main_arg2) i).toNat < 1000)
include hL

/-- Chunk `q` of point `t` contributes the rows `2048 t + 512 q … 2048 t + 512 q + 511`. -/
theorem blockChunk_eq (c : Dev nD) (t : Fin cfg0.N) (q : Fin 4) (j : Fin 1024) (col : Fin 640) :
    blockChunk (xblk m c t) (lblk m c t) q j col
      = accIco (fA m c) (labA m c) (t.val * 2048 + q.val * 512) (t.val * 2048 + q.val * 512 + 512) j col := by
  have hN : t.val < 32 := lt_of_lt_of_eq t.isLt (show cfg0.N = 32 from N_0)
  rw [accIco_chunk]
  unfold blockChunk
  refine Finset.sum_congr rfl fun r _ => ?_
  have hlt : t.val * 2048 + (q.val * 512 + r.val) < 65536 := by omega
  rw [show t.val * 2048 + q.val * 512 + r.val = t.val * 2048 + (q.val * 512 + r.val) from Nat.add_assoc _ _ _,
    term_of_lt _ _ _ _ hlt, lblk_apply m c t ⟨q.val * 512 + r.val, by omega⟩ hlt, ohw_eq_hot _ _ _ (hL c _), aug_eq_augRow]
  congr 2
  funext k
  exact xblk_apply m c t ⟨q.val * 512 + r.val, by omega⟩ k hlt

/-- A whole point contributes its 2048 rows, added to the starting value. -/
theorem addChunks_eq (c : Dev nD) (t : Fin cfg0.N) (z : EReal) (j : Fin 1024) (col : Fin 640) :
    addChunks z (xblk m c t) (lblk m c t) j col
      = z + accIco (fA m c) (labA m c) (t.val * 2048) ((t.val + 1) * 2048) j col := by
  unfold addChunks
  rw [blockChunk_eq m hL c t 0, blockChunk_eq m hL c t 1, blockChunk_eq m hL c t 2, blockChunk_eq m hL c t 3]
  rw [add_assoc, add_assoc, add_assoc]
  congr 1
  have e0 : ((0 : Fin 4) : ℕ) = 0 := rfl
  have e1 : ((1 : Fin 4) : ℕ) = 1 := rfl
  have e2 : ((2 : Fin 4) : ℕ) = 2 := rfl
  have e3 : ((3 : Fin 4) : ℕ) = 3 := rfl
  rw [e0, e1, e2, e3]
  rw [← accIco_add (fA m c) (labA m c) (lo := t.val * 2048) (mid := t.val * 2048 + 1536) (hi := (t.val + 1) * 2048) (by omega) (by omega),
    ← accIco_add (fA m c) (labA m c) (lo := t.val * 2048) (mid := t.val * 2048 + 1024) (hi := t.val * 2048 + 1536) (by omega) (by omega),
    ← accIco_add (fA m c) (labA m c) (lo := t.val * 2048) (mid := t.val * 2048 + 512) (hi := t.val * 2048 + 1024) (by omega) (by omega)]
  have a0 : t.val * 2048 + 0 * 512 = t.val * 2048 := by omega
  have a0' : t.val * 2048 + 0 * 512 + 512 = t.val * 2048 + 512 := by omega
  have a1 : t.val * 2048 + 1 * 512 = t.val * 2048 + 512 := by omega
  have a1' : t.val * 2048 + 1 * 512 + 512 = t.val * 2048 + 1024 := by omega
  have a2 : t.val * 2048 + 2 * 512 = t.val * 2048 + 1024 := by omega
  have a2' : t.val * 2048 + 2 * 512 + 512 = t.val * 2048 + 1536 := by omega
  have a3 : t.val * 2048 + 3 * 512 = t.val * 2048 + 1536 := by omega
  have a3' : t.val * 2048 + 3 * 512 + 512 = (t.val + 1) * 2048 := by omega
  rw [a0', a0, a1', a1, a2', a2, a3', a3]
  rw [add_assoc, add_assoc]

/-! ## The accumulator after each point -/

/-- After point `n` the accumulator holds the contributions of the rows from the pass's first row up to row
    `2048 (n + 1)`: by induction on the point. -/
theorem acc_after (c : Dev nD) : ∀ (n : ℕ) (hn : n < cfg0.N) (j : Fin 1024) (col : Fin 640),
    (outsAt0 m c n hn).2 (ix2 j col) = accIco (fA m c) (labA m c) (n / 16 * 32768) ((n + 1) * 2048) j col := by
  intro n
  induction n with
  | zero =>
    intro hn j col
    have h0 : (⟨0, hn⟩ : Fin cfg0.N).val % 16 = 0 := rfl
    have h1 : ¬(⟨0, hn⟩ : Fin cfg0.N).val % 16 = 15 := by show ¬(0 % 16 = 15); decide
    rw [outsAt0_A m c ⟨0, hn⟩ h0 h1]
    dsimp only
    refine (sout0_A_0_apply c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩)
      scM0_0 (Memref.isWhole_whole _) _ _ (iblk m c 0 ⟨0, hn⟩) (iblk m c 1 ⟨0, hn⟩) j col).trans ?_
    rw [addChunks_eq m hL c ⟨0, hn⟩ 0 j col, zero_add]
    rfl
  | succ n ih =>
    intro hn j col
    have hN : n + 1 < 32 := lt_of_lt_of_eq hn (show cfg0.N = 32 from N_0)
    by_cases h0 : (n + 1) % 16 = 0
    · have h1 : ¬(n + 1) % 16 = 15 := by omega
      rw [outsAt0_A m c ⟨n + 1, hn⟩ h0 h1]
      dsimp only
      refine (sout0_A_0_apply c (grid0.coords ⟨n + 1, hn⟩) (ms0_0 ⟨n + 1, hn⟩) (hs0_0 ⟨n + 1, hn⟩) (ms0_1 ⟨n + 1, hn⟩) (hs0_1 ⟨n + 1, hn⟩)
        (ms0_2 ⟨n + 1, hn⟩) (hs0_2 ⟨n + 1, hn⟩) scM0_0 (Memref.isWhole_whole _) _ _ (iblk m c 0 ⟨n + 1, hn⟩) (iblk m c 1 ⟨n + 1, hn⟩) j col).trans ?_
      rw [addChunks_eq m hL c ⟨n + 1, hn⟩ 0 j col, zero_add]
      dsimp only
      have e : (n + 1) / 16 * 32768 = (n + 1) * 2048 := by omega
      rw [e]
    · have hprev := ih (Nat.lt_of_succ_lt hn) j col
      have e : n / 16 * 32768 = (n + 1) / 16 * 32768 := by omega
      by_cases h1 : (n + 1) % 16 = 15
      · rw [outsAt0_C m c ⟨n + 1, hn⟩ h0 h1]
        dsimp only
        refine (sout0_C_0_apply c (grid0.coords ⟨n + 1, hn⟩) (ms0_0 ⟨n + 1, hn⟩) (hs0_0 ⟨n + 1, hn⟩) (ms0_1 ⟨n + 1, hn⟩) (hs0_1 ⟨n + 1, hn⟩)
          (ms0_2 ⟨n + 1, hn⟩) (hs0_2 ⟨n + 1, hn⟩) scM0_0 (Memref.isWhole_whole _) _ _ (iblk m c 0 ⟨n + 1, hn⟩) (iblk m c 1 ⟨n + 1, hn⟩)
          (outsAt0 m c n (Nat.lt_of_succ_lt hn)).2 j col).trans ?_
        rw [addChunks_eq m hL c ⟨n + 1, hn⟩ _ j col, hprev, e]
        dsimp only
        exact accIco_add _ _ (by omega) (by omega) j col
      · rw [outsAt0_B m c ⟨n + 1, hn⟩ h0 h1]
        dsimp only
        refine (sout0_B_0_apply c (grid0.coords ⟨n + 1, hn⟩) (ms0_0 ⟨n + 1, hn⟩) (hs0_0 ⟨n + 1, hn⟩) (ms0_1 ⟨n + 1, hn⟩) (hs0_1 ⟨n + 1, hn⟩)
          (ms0_2 ⟨n + 1, hn⟩) (hs0_2 ⟨n + 1, hn⟩) scM0_0 (Memref.isWhole_whole _) _ _ (iblk m c 0 ⟨n + 1, hn⟩) (iblk m c 1 ⟨n + 1, hn⟩)
          (outsAt0 m c n (Nat.lt_of_succ_lt hn)).2 j col).trans ?_
        rw [addChunks_eq m hL c ⟨n + 1, hn⟩ _ j col, hprev, e]
        dsimp only
        exact accIco_add _ _ (by omega) (by omega) j col

/-- At a pass's last point the output block is the accumulator's copy. -/
theorem out_after (c : Dev nD) (t : Fin cfg0.N) (h15 : t.val % 16 = 15) (j : Fin 1024) (col : Fin 640) :
    (outsAt0 m c t.val t.isLt).1 (ix3 0 j col) = accIco (fA m c) (labA m c) (t.val / 16 * 32768) ((t.val + 1) * 2048) j col := by
  have hN : t.val < 32 := lt_of_lt_of_eq t.isLt (show cfg0.N = 32 from N_0)
  have h0 : ¬t.val % 16 = 0 := by omega
  rw [outsAt0_C m c t h0 h15]
  dsimp only
  refine (out0_C_2_apply c (grid0.coords t) (ms0_0 t) (hs0_0 t) (ms0_1 t) (hs0_1 t) (ms0_2 t) (hs0_2 t) scM0_0 (Memref.isWhole_whole _) _ _
    (iblk m c 0 t) (iblk m c 1 t) (outsAt0 m c (t.val - 1) (Nat.lt_of_le_of_lt (Nat.sub_le _ _) t.isLt)).2 j col).trans ?_
  rw [addChunks_eq m hL c t _ j col, acc_after m hL c (t.val - 1) _ j col]
  have e1 : (t.val - 1) / 16 * 32768 = t.val / 16 * 32768 := by omega
  have e2 : (t.val - 1 + 1) * 2048 = t.val * 2048 := by omega
  rw [e1, e2]
  exact accIco_add _ _ (by omega) (by omega) j col

/-! ## The output array -/

/-- Pass `p`'s block of the output array: the contributions of rows `32768 p … 32768 (p + 1) − 1`. -/
def rawG (c : Dev nD) : S2x1024x640.Idx → EReal := fun y =>
  accIco (fA m c) (labA m c) ((y 0).val * 32768) (((y 0).val + 1) * 32768) ⟨(y 1).val, (y 1).isLt⟩ ⟨(y 2).val, (y 2).isLt⟩

/-- What a pass's last point writes back is its block of `rawG`. -/
theorem flushed_eq (c : Dev nD) (t : Fin cfg0.N) (hf : (cfg0.win 2).flush t = true) :
    (dats m 0 c).flushed 2 t = ((cfg0.win 2).blk t).view.read (Elt Ideal) (rawG m c) := by
  have h15 := (flush0_2 t).mp hf
  have hN : t.val < 32 := lt_of_lt_of_eq t.isLt (show cfg0.N = 32 from N_0)
  show (cfg0.win 2).cut (grid0.coords t) ((dats m 0 c).after 2 t) = _
  rw [after0_2]
  funext y
  obtain ⟨a, j, col, rfl⟩ : ∃ (a : Fin 1) (j : Fin 1024) (col : Fin 640), y = ix3 a j col := ⟨y 0, y 1, y 2, eq_ix3 y⟩
  obtain rfl : a = 0 := Subsingleton.elim _ _
  show (outsAt0 m c t.val t.isLt).1 (ix3 0 j col) = rawG m c (((cfg0.win 2).blk t).view.emb (ix3 0 j col))
  rw [out_after m hL c t h15 j col]
  unfold rawG
  have hp : t.val / 16 < 2 := by omega
  have hemb : ((cfg0.win 2).blk t).view.emb (ix3 (0 : Fin 1) j col) = (ix3 (⟨t.val / 16, hp⟩ : Fin 2) j col : S2x1024x640.Idx) := by
    funext a
    apply Fin.ext
    match a with
    | ⟨0, _⟩ => show win0_2.index t 0 * 1 + 1 * (0 : Fin 1).val = t.val / 16; rw [(idx2 t).1]; simp
    | ⟨1, _⟩ => show win0_2.index t 1 * 1024 + 1 * j.val = j.val; rw [(idx2 t).2.1]; simp
    | ⟨2, _⟩ => show win0_2.index t 2 * 640 + 1 * col.val = col.val; rw [(idx2 t).2.2]; simp
  rw [hemb]
  show _ = accIco (fA m c) (labA m c) (t.val / 16 * 32768) ((t.val / 16 + 1) * 32768) j col
  congr 1
  omega

/-- An index of the output array is in point `t`'s block iff each coordinate is in the block's range on its axis. -/
theorem mem_blk (t : Fin cfg0.N) (i : S2x1024x640.Idx) :
    i ∈ ((cfg0.win 2).blk t).view.set ↔ ∀ a : Fin 3, win0_2.index t a * S1x1024x640.size a ≤ (i a).val ∧ (i a).val < win0_2.index t a * S1x1024x640.size a + S1x1024x640.size a := by
  show i ∈ ((View.whole main_v1).slice (win0_2.rect t)).set ↔ _
  rw [View.set_slice_whole, Rect.mem_set_unit]
  exact Iff.rfl

/-- The two passes' last points cover the output array, so it ends holding `rawG`. -/
theorem raw_final (c : Dev nD) : (dats m 0 c).arrAt 2 cfg0.N = rawG m c :=
  (dats m 0 c).arrAt_eq_of_cover 2 (rawG m c) (flushed_eq m hL c) fun i => by
    have hi0 : (i 0).val < 2 := (i 0).isLt
    have hi1 : (i 1).val < 1024 := (i 1).isLt
    have hi2 : (i 2).val < 640 := (i 2).isLt
    have hN : cfg0.N = 32 := N_0
    refine ⟨⟨(i 0).val * 16 + 15, by omega⟩, (flush0_2 _).mpr (by dsimp only; omega), ?_⟩
    rw [mem_blk m hL]
    obtain ⟨q0, q1, q2⟩ := idx2 ⟨(i 0).val * 16 + 15, by omega⟩
    intro a
    match a with
    | ⟨0, _⟩ =>
      show win0_2.index _ 0 * 1 ≤ (i 0).val ∧ (i 0).val < win0_2.index _ 0 * 1 + 1
      rw [q0]; dsimp only; omega
    | ⟨1, _⟩ =>
      show win0_2.index _ 1 * 1024 ≤ (i 1).val ∧ (i 1).val < win0_2.index _ 1 * 1024 + 1024
      rw [q1]; omega
    | ⟨2, _⟩ =>
      show win0_2.index _ 2 * 640 ≤ (i 2).val ∧ (i 2).val < win0_2.index _ 2 * 640 + 640
      rw [q2]; omega

/-- The output array by coordinates: pass `p`, class `j`, column `col`. -/
theorem raw_value (c : Dev nD) (p : Fin 2) (j : Fin 1024) (col : Fin 640) :
    (dats m 0 c).arrAt 2 cfg0.N (ix3 p j col)
      = accIco (fA m c) (labA m c) (p.val * 32768) ((p.val + 1) * 32768) j col := by
  rw [raw_final m hL c]
  rfl

end Cert.CenterLoss.Region

end
-- ==== Proof.lean ====
/-
  Center loss by one-hot matrix products against the per-row reference: the certificate's assembly.

  Both programs compute, for a batch of 65536 feature rows with a class label each and a table of 1000 class
  centers, the mean over the batch of the classes' mean squared distances per coordinate.  The reference gathers
  each row's center, sums the squared differences, and segment-sums distances and counts by label.  The kernel
  never gathers: it multiplies a one-hot matrix of the labels into the rows and into three extra columns (squared
  norm, squared norm minus itself, one), accumulating per class the sum of the rows, of the squared norms and the
  count over two passes of sixteen grid points, and recovers the distances from
  `‖x − c‖² = ‖x‖² − 2·c·x + ‖c‖²` summed over the class.  The two agree on the extended reals where every
  feature and center is finite and every label is a class number, 0 ≤ label < 1000 (outside that range the
  reference indexes past its table and drops the row from its segment sums, while the kernel's padded one-hot rows
  1000 … 1023 would count it).

  The pieces: the specification's two whole-array functions and their equality over the reals (Spec, SpecAcc,
  Algebra); the precondition read as finiteness and label range (PreDecode); the reference's run read as
  `refLoss` (RefValue, over the reference's run and its read-at-an-index module); the kernel body's chunk
  arithmetic (BodyPay) and what each grid point leaves in the accumulator (BodyPieces); the accumulator after
  every point and the region's output array (Region); the host operations after the region read as `kerLoss`
  (KernelTail).  Here the five claims are put together.
-/
import proofs.«404159_j25305947308120_3_alg».proof.Defs
import proofs.«404159_j25305947308120_3_alg».proof.Proof.Gen.Kernel
import proofs.«404159_j25305947308120_3_alg».proof.Proof.Gen.Kernel.Skeleton
import proofs.«404159_j25305947308120_3_alg».proof.Proof.Gen.Kernel.Launch
import proofs.«404159_j25305947308120_3_alg».proof.Proof.Gen.Kernel.Points
import proofs.«404159_j25305947308120_3_alg».proof.Proof.Gen.Kernel.Frame
import proofs.«404159_j25305947308120_3_alg».proof.Proof.Gen.KernelIdeal
import proofs.«404159_j25305947308120_3_alg».proof.Proof.Gen.KernelIdeal.Skeleton
import proofs.«404159_j25305947308120_3_alg».proof.Proof.Gen.KernelIdeal.Launch
import proofs.«404159_j25305947308120_3_alg».proof.Proof.Gen.KernelIdeal.Points
import proofs.«404159_j25305947308120_3_alg».proof.Proof.Gen.KernelIdeal.Frame
import proofs.«404159_j25305947308120_3_alg».proof.Proof.Gen.ReferenceIdeal
import proofs.«404159_j25305947308120_3_alg».proof.Proof.Gen.Pre_finite_inputs
import proofs.«404159_j25305947308120_3_alg».proof.Proof.RefRun
import proofs.«404159_j25305947308120_3_alg».proof.Proof.RefRead
import proofs.«404159_j25305947308120_3_alg».proof.Proof.Spec
import proofs.«404159_j25305947308120_3_alg».proof.Proof.SpecAcc
import proofs.«404159_j25305947308120_3_alg».proof.Proof.Algebra
import proofs.«404159_j25305947308120_3_alg».proof.Proof.PreDecode
import proofs.«404159_j25305947308120_3_alg».proof.Proof.RefValue
import proofs.«404159_j25305947308120_3_alg».proof.Proof.KernelTail
import proofs.«404159_j25305947308120_3_alg».proof.Proof.Region
import Idealize.ShloMosaic.Adequacy
import Idealize.ShloMosaic.Init

noncomputable section

namespace Cert.Proof

open Idealize.ShloMosaic Idealize.ShloMosaic.TcCoe Idealize.SL.Sem
open Cert.CenterLoss

/-- The word-level kernel runs and keeps its arguments: its generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization dropped four round trips of a squared-norm column through the narrower format: at the extended
    reals each is the identity. -/
theorem preserves : Cert.preserves_Kernel_KernelIdeal :=
  ⟨IdealRules.truncf_extf.statement _ .f32 .bf16, IdealRules.truncf_extf.statement _ .f32 .bf16,
    IdealRules.truncf_extf.statement _ .f32 .bf16, IdealRules.truncf_extf.statement _ .f32 .bf16⟩

/-- The idealized kernel's run, read: its result is `kerLoss` of the arguments, which stay as they were. -/
theorem kernel_run (m : (ℓ : Loc Cert.KernelIdeal.nD Cert.KernelIdeal.τ Cert.KernelIdeal.sig) → Buf (Elt Ideal) ℓ)
    (ρ : Dev Cert.KernelIdeal.nD → PrngReg)
    (hL : ∀ c : Dev Cert.KernelIdeal.nD, ∀ i, (m ((c : Thread Cert.KernelIdeal.nD Cert.KernelIdeal.τ).loc Cert.KernelIdeal.main_arg2) i).toNat < 1000) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v35)
          = (fun _ => kerLoss (fOf (m ((c.tc : Thread Cert.KernelIdeal.nD Cert.KernelIdeal.τ).loc Cert.KernelIdeal.main_arg0)))
              (cOf (m ((c.tc : Thread Cert.KernelIdeal.nD Cert.KernelIdeal.τ).loc Cert.KernelIdeal.main_arg1)))
              (labOf (m ((c.tc : Thread Cert.KernelIdeal.nD Cert.KernelIdeal.τ).loc Cert.KernelIdeal.main_arg2))))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) := by
  open Cert.KernelIdeal Cert.KernelIdeal.Gen in
  refine (θ_run defs _ _).mono (fun r h c => ⟨?_, ?_, ?_, ?_⟩) (run_main m ρ)
  · refine ((h c).2 main_v35 (Pipeline.mem_restRefs_of main_v35 (by decide) (by decide))).trans ?_
    rw [Cert.CenterLoss.Tail.tail_eq m c]
    exact Cert.CenterLoss.Tail.tailFn_value _ _ _ _ (fun p j col => Cert.CenterLoss.Region.raw_value m hL c p j col)
  · exact ((h c).1 0).trans (((dats m 0 c).arrAt_in 0 rfl _).trans ((A_eq m c 0).trans (V_main_arg0 m c)))
  · exact ((h c).2 main_arg1 (Pipeline.mem_restRefs_of main_arg1 (by decide) (by decide))).trans (W_main_arg1 m (dats m) c)
  · exact ((h c).2 main_arg2 (Pipeline.mem_restRefs_of main_arg2 (by decide) (by decide))).trans (W_main_arg2 m (dats m) c)

/-- From memories agreeing on finite features and centers and labels that are class numbers, both idealized programs
    end with the same result: the kernel's `kerLoss` is the reference's `refLoss`. -/
theorem algebraic : Cert.algebraic_KernelIdeal_ReferenceIdeal := by
  intro m ρ m' ρ' hpre hagree
  have hdec := fun c => Cert.CenterLoss.pre_decode _ _ _ (hpre c)
  have hL : ∀ c : Dev Cert.KernelIdeal.nD, ∀ i, (m ((c : Thread Cert.KernelIdeal.nD Cert.KernelIdeal.τ).loc Cert.KernelIdeal.main_arg2) i).toNat < 1000 :=
    fun c => (hdec c).2.2
  refine ⟨_, kernel_run m ρ hL, ?_⟩
  refine (θ_run Cert.ReferenceIdeal.defs _ _).mono (fun _ h c => ⟨?_, (h c).2⟩) (Cert.ReferenceIdeal.Value.run (F := Ideal) m' ρ')
  refine (h c).1.trans ((Cert.ReferenceIdeal.Read.val_main_v24_eq _ _ _).trans ?_)
  rw [(hagree c).1, (hagree c).2.1, (hagree c).2.2]
  rw [Cert.CenterLoss.ref_value _ _ _ (hL c)]
  funext _
  exact (kerLoss_eq_refLoss _ _ _ (fun i k => (hdec c).1 _) (fun j k => (hdec c).2.1 _)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
